-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x64 : Shape := ⟨3, ![2, 4096, 64]⟩
abbrev S3x4096x4096 : Shape := ⟨3, ![3, 4096, 4096]⟩
abbrev S3x64x64 : Shape := ⟨3, ![3, 64, 64]⟩
abbrev S1x64 : Shape := ⟨2, ![1, 64]⟩
abbrev S_ : Shape := ⟨0, ![]⟩

class Facts : Prop where
  bcast_S_S2x4096x64 : S_.BroadcastsInDim S2x4096x64 (![] : Fin 0 → Fin S2x4096x64.rank)
  reducesTo_S2x4096x64_S_d0_1_2 : S2x4096x64.ReducesTo [0, 1, 2] S_
  h_S_ : 0 < S_.numel
  bcast_S_S3x4096x4096 : S_.BroadcastsInDim S3x4096x4096 (![] : Fin 0 → Fin S3x4096x4096.rank)
  reducesTo_S3x4096x4096_S_d0_1_2 : S3x4096x4096.ReducesTo [0, 1, 2] S_
  bcast_S_S3x64x64 : S_.BroadcastsInDim S3x64x64 (![] : Fin 0 → Fin S3x64x64.rank)
  reducesTo_S3x64x64_S_d0_1_2 : S3x64x64.ReducesTo [0, 1, 2] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S1x64 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  main_v23

def fn {F : FTy → Type} [FloatOps F] (main_arg0 : FVec F S2x4096x64 .f32) (main_arg1 : FVec F S3x4096x4096 .f32) (main_arg2 : FVec F S3x4096x4096 .f32) (main_arg3 : FVec F S3x64x64 .f32) (main_arg4 : FVec F S1x64 .f32) : IVec S_ 1 :=
  let main_v0 : FVec F S2x4096x64 .f32 := Host.absf main_arg0
  let main_cst : FVec F S_ .f32 := constant S_ .f32 0x7F800000#32
  let main_v1 : FVec F S2x4096x64 .f32 := broadcastInDim S2x4096x64 ![] bcast_S_S2x4096x64 main_cst
  let main_v2 : IVec S2x4096x64 1 := cmpf .olt main_v0 main_v1
  let main_c : IVec S_ 1 := constantI S_ 1 1#1
  let main_v3 : IVec S_ 1 := (fun x v => Host.reduce IntOp.andi x v reducesTo_S2x4096x64_S_d0_1_2 h_S_) main_v2 main_c
  let main_v4 : FVec F S3x4096x4096 .f32 := Host.absf main_arg1
  let main_cst_0 : FVec F S_ .f32 := constant S_ .f32 0x7F800000#32
  let main_v5 : FVec F S3x4096x4096 .f32 := broadcastInDim S3x4096x4096 ![] bcast_S_S3x4096x4096 main_cst_0
  let main_v6 : IVec S3x4096x4096 1 := cmpf .olt main_v4 main_v5
  let main_c_1 : IVec S_ 1 := constantI S_ 1 1#1
  let main_v7 : IVec S_ 1 := (fun x v => Host.reduce IntOp.andi x v reducesTo_S3x4096x4096_S_d0_1_2 h_S_) main_v6 main_c_1
  let main_v8 : IVec S_ 1 := andi main_v3 main_v7
  let main_v9 : FVec F S3x4096x4096 .f32 := Host.absf main_arg2
  let main_cst_2 : FVec F S_ .f32 := constant S_ .f32 0x7F800000#32
  let main_v10 : FVec F S3x4096x4096 .f32 := broadcastInDim S3x4096x4096 ![] bcast_S_S3x4096x4096 main_cst_2
  let main_v11 : IVec S3x4096x4096 1 := cmpf .olt main_v9 main_v10
  let main_c_3 : IVec S_ 1 := constantI S_ 1 1#1
  let main_v12 : IVec S_ 1 := (fun x v => Host.reduce IntOp.andi x v reducesTo_S3x4096x4096_S_d0_1_2 h_S_) main_v11 main_c_3
  let main_v13 : IVec S_ 1 := andi main_v8 main_v12
  let main_v14 : FVec F S3x64x64 .f32 := Host.absf main_arg3
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg4 main_v13 main_v16
-- ==== Kernel.lean ====
abbrev S2x4096x64 : Shape := ⟨3, ![2, 4096, 64]⟩
abbrev S3x4096x4096 : Shape := ⟨3, ![3, 4096, 4096]⟩
abbrev S3x64x64 : Shape := ⟨3, ![3, 64, 64]⟩
abbrev S1x64 : Shape := ⟨2, ![1, 64]⟩
abbrev S4096x128 : Shape := ⟨2, ![4096, 128]⟩
abbrev S4096x64 : Shape := ⟨2, ![4096, 64]⟩
abbrev S3x128x4096 : Shape := ⟨3, ![3, 128, 4096]⟩
abbrev S128x128 : Shape := ⟨2, ![128, 128]⟩
abbrev S1x4096x64 : Shape := ⟨3, ![1, 4096, 64]⟩
abbrev S1x64x64 : Shape := ⟨3, ![1, 64, 64]⟩
abbrev S64x64 : Shape := ⟨2, ![64, 64]⟩
abbrev S1x128x4096 : Shape := ⟨3, ![1, 128, 4096]⟩
abbrev S128x4096 : Shape := ⟨2, ![128, 4096]⟩
abbrev S1x128 : Shape := ⟨2, ![1, 128]⟩

abbrev nBuf : Space → Nat
  | .hbm => 8
  | .vmem => 9
  | .smem => 0
  | _ => 0

abbrev bufTy : (tb : Table) → Fin (tcTables nBuf tb) → BufTy
  | .hbm, ⟨0, _⟩ => ⟨S2x4096x64, .f32⟩
  | .hbm, ⟨1, _⟩ => ⟨S3x4096x4096, .f32⟩
  | .hbm, ⟨2, _⟩ => ⟨S3x4096x4096, .f32⟩
  | .hbm, ⟨3, _⟩ => ⟨S3x64x64, .f32⟩
  | .hbm, ⟨4, _⟩ => ⟨S1x64, .f32⟩
  | .hbm, ⟨5, _⟩ => ⟨S4096x128, .f32⟩
  | .hbm, ⟨6, _⟩ => ⟨S4096x64, .f32⟩
  | .hbm, ⟨7, _⟩ => ⟨S4096x64, .f32⟩
  | .local _ .vmem, ⟨0, _⟩ => ⟨S2x4096x64, .f32⟩
  | .local _ .vmem, ⟨1, _⟩ => ⟨S3x128x4096, .f32⟩
  | .local _ .vmem, ⟨2, _⟩ => ⟨S3x128x4096, .f32⟩
  | .local _ .vmem, ⟨3, _⟩ => ⟨S3x128x4096, .f32⟩
  | .local _ .vmem, ⟨4, _⟩ => ⟨S3x128x4096, .f32⟩
  | .local _ .vmem, ⟨5, _⟩ => ⟨S3x64x64, .f32⟩
  | .local _ .vmem, ⟨6, _⟩ => ⟨S1x64, .f32⟩
  | .local _ .vmem, ⟨7, _⟩ => ⟨S128x128, .f32⟩
  | .local _ .vmem, ⟨8, _⟩ => ⟨S128x128, .f32⟩
  | _, _ => ⟨S2x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![32, 1], ![false, false]⟩

def k0_cond1 (i : grid0.Coords) : BitVec 1 :=
  let arg1 : BitVec 32 := BitVec.ofNat 32 (i 1).val
  let c0_i32 : BitVec 32 := 0#32
  let v63 : BitVec 1 := Scalar.cmpi .eq arg1 c0_i32
  let v64 : BitVec 32 := Scalar.extui v63
  let c0_i32_44 : BitVec 32 := 0#32
  let v65 : BitVec 1 := Scalar.cmpi .ne v64 c0_i32_44
  v65

def k0_cond2 (i : grid0.Coords) : BitVec 1 :=
  let arg1 : BitVec 32 := BitVec.ofNat 32 (i 1).val
  let c0_i32_45 : BitVec 32 := 0#32
  let v66 : BitVec 1 := Scalar.cmpi .sgt arg1 c0_i32_45
  let v67 : BitVec 32 := Scalar.extui v66
  let c0_i32_46 : BitVec 32 := 0#32
  let v68 : BitVec 1 := Scalar.cmpi .ne v67 c0_i32_46
  v68

def k0_cond3 (i : grid0.Coords) : BitVec 1 :=
  let arg1 : BitVec 32 := BitVec.ofNat 32 (i 1).val
  let c0_i32_47 : BitVec 32 := 0#32
  let v69 : BitVec 1 := Scalar.cmpi .eq arg1 c0_i32_47
  let v70 : BitVec 32 := Scalar.extui v69
  let c0_i32_48 : BitVec 32 := 0#32
  let v71 : BitVec 1 := Scalar.cmpi .ne v70 c0_i32_48
  v71

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S2x4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S3x128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  slices_S4096x128_S4096x64_0_0 : S4096x128.Slices ![0, 0] S4096x64
  slices_S4096x128_S4096x64_0_64 : S4096x128.Slices ![0, 64] S4096x64
  inb_S2x4096x64_S1x4096x64_0_0_0 : ∀ a, (![0, 0, 0] : Fin 3 → Nat) a + S1x4096x64.size a ≤ S2x4096x64.size a
  h_S1x4096x64 : 0 < S1x4096x64.numel
  shapeCasts_S1x4096x64_S4096x64 : S1x4096x64.ShapeCasts S4096x64
  inb_S2x4096x64_S1x4096x64_1_0_0 : ∀ a, (![1, 0, 0] : Fin 3 → Nat) a + S1x4096x64.size a ≤ S2x4096x64.size a
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  concatenates_S4096x64_S4096x64_S4096x128_d1 : Shape.Concatenates [S4096x64, S4096x64] S4096x128 1
  bitsLt_bf16_f32 : FTy.bits .bf16 < FTy.bits .f32
  inb_S3x128x4096_S1x128x4096_0_0_0 : ∀ a, (![0, 0, 0] : Fin 3 → Nat) a + S1x128x4096.size a ≤ S3x128x4096.size a
  h_S1x128x4096 : 0 < S1x128x4096.numel
  shapeCasts_S1x128x4096_S128x4096 : S1x128x4096.ShapeCasts S128x4096
  inb_S3x64x64_S1x64x64_1_0_0 : ∀ a, (![1, 0, 0] : Fin 3 → Nat) a + S1x64x64.size a ≤ S3x64x64.size a
  inb_S3x128x4096_S1x128x4096_1_0_0 : ∀ a, (![1, 0, 0] : Fin 3 → Nat) a + S1x128x4096.size a ≤ S3x128x4096.size a
  inb_S3x64x64_S1x64x64_2_0_0 : ∀ a, (![2, 0, 0] : Fin 3 → Nat) a + S1x64x64.size a ≤ S3x64x64.size a
  inb_S3x128x4096_S1x128x4096_2_0_0 : ∀ a, (![2, 0, 0] : Fin 3 → Nat) a + S1x128x4096.size a ≤ S3x128x4096.size a
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x64_S1x64_0_0 : ∀ a, (![0, 0] : Fin 2 → Nat) a + S1x64.size a ≤ S1x64.size a
  h_S1x64 : 0 < S1x64.numel
  concatenates_S1x64_S1x64_S1x128_d1 : Shape.Concatenates [S1x64, S1x64] S1x128 1
  broadcasts_S1x128_S128x128 : S1x128.Broadcasts S128x128
  dot_S4096x64_S64x64_S4096x64_1_0_0_1_n_n_wf : DotDims.WF S4096x64 S64x64 S4096x64 [1] [0] [0] [1] [] []
  dot_S128x4096_S4096x128_S128x128_1_0_0_1_n_n_wf : DotDims.WF S128x4096 S4096x128 S128x128 [1] [0] [0] [1] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S2x4096x64.size a ≤ S2x4096x64.size a
  hwx0_0 : ∀ i : grid0.Coords, EltTy.bits .f32 = 32 ∨ (Rect.block (s := S2x4096x64) S2x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x128x4096.size a ≤ S3x4096x4096.size a
  hwx0_1 : ∀ i : grid0.Coords, EltTy.bits .f32 = 32 ∨ (Rect.block (s := S3x4096x4096) S3x128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x128x4096.size a ≤ S3x4096x4096.size a
  hwx0_2 : ∀ i : grid0.Coords, EltTy.bits .f32 = 32 ∨ (Rect.block (s := S3x4096x4096) S3x128x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64x64.size a ≤ S3x64x64.size a
  hwx0_3 : ∀ i : grid0.Coords, EltTy.bits .f32 = 32 ∨ (Rect.block (s := S3x64x64) S3x64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S4096x128.size a
  hwx0_5 : ∀ i : grid0.Coords, EltTy.bits .f32 = 32 ∨ (Rect.block (s := S4096x128) S128x128.size (cc0_transform_5 i) (hinb0_5 i)).WholeWords (EltTy.packing .f32)

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S128x4096_S4096x128_S128x128_1_0_0_1_n_n : DotDims S128x4096 S4096x128 S128x128 where
  lhsContracting := [1]
  rhsContracting := [0]
  lhsNonContracting := [0]
  rhsNonContracting := [1]
  lhsBatch := []
  rhsBatch := []
  wf := dot_S128x4096_S4096x128_S128x128_1_0_0_1_n_n_wf

abbrev win0_0 : Pipeline.Window sig grid0 :=
  Pipeline.Window.ofSpec (Memref.whole main_arg0) S2x4096x64.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v0) S128x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond1 i == 1#1) && !(k0_cond2 i == 1#1) && !(k0_cond3 i == 1#1) | ⟨_ + 6, h⟩ => absurd h (Nat.not_lt.2 (Nat.le_add_left _ _))

class Facts : Prop extends Facts₀ where

variable [Facts]
-- ==== ReferenceIdeal.lean ====
abbrev S2x4096x64 : Shape := ⟨3, ![2, 4096, 64]⟩
abbrev S3x4096x4096 : Shape := ⟨3, ![3, 4096, 4096]⟩
abbrev S3x64x64 : Shape := ⟨3, ![3, 64, 64]⟩
abbrev S1x64 : Shape := ⟨2, ![1, 64]⟩
abbrev S1x4096x64 : Shape := ⟨3, ![1, 4096, 64]⟩
abbrev S4096x64 : Shape := ⟨2, ![4096, 64]⟩
abbrev S1x4096x4096 : Shape := ⟨3, ![1, 4096, 4096]⟩
abbrev S4096x4096 : Shape := ⟨2, ![4096, 4096]⟩
abbrev S1x64x64 : Shape := ⟨3, ![1, 64, 64]⟩
abbrev S64x64 : Shape := ⟨2, ![64, 64]⟩
abbrev S_ : Shape := ⟨0, ![]⟩
abbrev S1x2x4096x64 : Shape := ⟨4, ![1, 2, 4096, 64]⟩
abbrev S3x2x4096x64 : Shape := ⟨4, ![3, 2, 4096, 64]⟩

abbrev nBuf : Space → Nat
  | .hbm => 119
  | .vmem => 0
  | .smem => 0
  | _ => 0

abbrev bufTy : (tb : Table) → Fin (tcTables nBuf tb) → BufTy
  | .hbm, ⟨0, _⟩ => ⟨S2x4096x64, .f32⟩
  | .hbm, ⟨1, _⟩ => ⟨S3x4096x4096, .f32⟩
  | .hbm, ⟨2, _⟩ => ⟨S3x4096x4096, .f32⟩
  | .hbm, ⟨3, _⟩ => ⟨S3x64x64, .f32⟩
  | .hbm, ⟨4, _⟩ => ⟨S1x64, .f32⟩
  | .hbm, ⟨5, _⟩ => ⟨S1x4096x64, .f32⟩
  | .hbm, ⟨6, _⟩ => ⟨S4096x64, .f32⟩
  | .hbm, ⟨7, _⟩ => ⟨S1x4096x64, .f32⟩
  | .hbm, ⟨8, _⟩ => ⟨S4096x64, .f32⟩
  | .hbm, ⟨9, _⟩ => ⟨S1x4096x4096, .f32⟩
  | .hbm, ⟨10, _⟩ => ⟨S4096x4096, .f32⟩
  | .hbm, ⟨11, _⟩ => ⟨S4096x64, .f32⟩
  | .hbm, ⟨12, _⟩ => ⟨S1x64x64, .f32⟩
  | .hbm, ⟨13, _⟩ => ⟨S64x64, .f32⟩
  | .hbm, ⟨14, _⟩ => ⟨S4096x64, .f32⟩
  | .hbm, ⟨15, _⟩ => ⟨S1x4096x4096, .f32⟩
  | .hbm, ⟨16, _⟩ => ⟨S4096x4096, .f32⟩
  | .hbm, ⟨17, _⟩ => ⟨S4096x64, .f32⟩
  | .hbm, ⟨18, _⟩ => ⟨S_, .f32⟩
  | .hbm, ⟨19, _⟩ => ⟨S4096x64, .f32⟩
  | .hbm, ⟨20, _⟩ => ⟨S4096x64, .f32⟩
  | .hbm, ⟨21, _⟩ => ⟨S1x64x64, .f32⟩
  | .hbm, ⟨22, _⟩ => ⟨S64x64, .f32⟩
  | .hbm, ⟨23, _⟩ => ⟨S4096x64, .f32⟩
  | .hbm, ⟨24, _⟩ => ⟨S4096x64, .f32⟩
  | .hbm, ⟨25, _⟩ => ⟨S1x4096x4096, .f32⟩
  | .hbm, ⟨26, _⟩ => ⟨S4096x4096, .f32⟩
  | .hbm, ⟨27, _⟩ => ⟨S4096x64, .f32⟩
  | .hbm, ⟨28, _⟩ => ⟨S1x64x64, .f32⟩
  | .hbm, ⟨29, _⟩ => ⟨S64x64, .f32⟩
  | .hbm, ⟨30, _⟩ => ⟨S4096x64, .f32⟩
  | .hbm, ⟨31, _⟩ => ⟨S1x4096x4096, .f32⟩
  | .hbm, ⟨32, _⟩ => ⟨S4096x4096, .f32⟩
  | .hbm, ⟨33, _⟩ => ⟨S4096x64, .f32⟩
  | .hbm, ⟨34, _⟩ => ⟨S1x64x64, .f32⟩
  | .hbm, ⟨35, _⟩ => ⟨S64x64, .f32⟩
  | .hbm, ⟨36, _⟩ => ⟨S4096x64, .f32⟩
  | .hbm, ⟨37, _⟩ => ⟨S4096x64, .f32⟩
  | .hbm, ⟨38, _⟩ => ⟨S1x4096x64, .f32⟩
  | .hbm, ⟨39, _⟩ => ⟨S1x4096x64, .f32⟩
  | .hbm, ⟨40, _⟩ => ⟨S2x4096x64, .f32⟩
  | .hbm, ⟨41, _⟩ => ⟨S1x4096x4096, .f32⟩
  | .hbm, ⟨42, _⟩ => ⟨S4096x4096, .f32⟩
  | .hbm, ⟨43, _⟩ => ⟨S4096x64, .f32⟩
  | .hbm, ⟨44, _⟩ => ⟨S1x64x64, .f32⟩
  | .hbm, ⟨45, _⟩ => ⟨S64x64, .f32⟩
  | .hbm, ⟨46, _⟩ => ⟨S4096x64, .f32⟩
  | .hbm, ⟨47, _⟩ => ⟨S1x4096x4096, .f32⟩
  | .hbm, ⟨48, _⟩ => ⟨S4096x4096, .f32⟩
  | .hbm, ⟨49, _⟩ => ⟨S4096x64, .f32⟩
  | .hbm, ⟨50, _⟩ => ⟨S_, .f32⟩
  | .hbm, ⟨51, _⟩ => ⟨S4096x64, .f32⟩
  | .hbm, ⟨52, _⟩ => ⟨S4096x64, .f32⟩
  | .hbm, ⟨53, _⟩ => ⟨S1x64x64, .f32⟩
  | .hbm, ⟨54, _⟩ => ⟨S64x64, .f32⟩
  | .hbm, ⟨55, _⟩ => ⟨S4096x64, .f32⟩
  | .hbm, ⟨56, _⟩ => ⟨S4096x64, .f32⟩
  | .hbm, ⟨57, _⟩ => ⟨S1x4096x4096, .f32⟩
  | .hbm, ⟨58, _⟩ => ⟨S4096x4096, .f32⟩
  | .hbm, ⟨59, _⟩ => ⟨S4096x64, .f32⟩
  | .hbm, ⟨60, _⟩ => ⟨S1x64x64, .f32⟩
  | .hbm, ⟨61, _⟩ => ⟨S64x64, .f32⟩
  | .hbm, ⟨62, _⟩ => ⟨S4096x64, .f32⟩
  | .hbm, ⟨63, _⟩ => ⟨S1x4096x4096, .f32⟩
  | .hbm, ⟨64, _⟩ => ⟨S4096x4096, .f32⟩
  | .hbm, ⟨65, _⟩ => ⟨S4096x64, .f32⟩
  | .hbm, ⟨66, _⟩ => ⟨S1x64x64, .f32⟩
  | .hbm, ⟨67, _⟩ => ⟨S64x64, .f32⟩
  | .hbm, ⟨68, _⟩ => ⟨S4096x64, .f32⟩
  | .hbm, ⟨69, _⟩ => ⟨S4096x64, .f32⟩
  | .hbm, ⟨70, _⟩ => ⟨S1x4096x64, .f32⟩
  | .hbm, ⟨71, _⟩ => ⟨S1x4096x64, .f32⟩
  | .hbm, ⟨72, _⟩ => ⟨S2x4096x64, .f32⟩
  | .hbm, ⟨73, _⟩ => ⟨S1x4096x4096, .f32⟩
  | .hbm, ⟨74, _⟩ => ⟨S4096x4096, .f32⟩
  | .hbm, ⟨75, _⟩ => ⟨S4096x64, .f32⟩
  | .hbm, ⟨76, _⟩ => ⟨S1x64x64, .f32⟩
  | .hbm, ⟨77, _⟩ => ⟨S64x64, .f32⟩
  | .hbm, ⟨78, _⟩ => ⟨S4096x64, .f32⟩
  | .hbm, ⟨79, _⟩ => ⟨S1x4096x4096, .f32⟩
  | .hbm, ⟨80, _⟩ => ⟨S4096x4096, .f32⟩
  | .hbm, ⟨81, _⟩ => ⟨S4096x64, .f32⟩
  | .hbm, ⟨82, _⟩ => ⟨S_, .f32⟩
  | .hbm, ⟨83, _⟩ => ⟨S4096x64, .f32⟩
  | .hbm, ⟨84, _⟩ => ⟨S4096x64, .f32⟩
  | .hbm, ⟨85, _⟩ => ⟨S1x64x64, .f32⟩
  | .hbm, ⟨86, _⟩ => ⟨S64x64, .f32⟩
  | .hbm, ⟨87, _⟩ => ⟨S4096x64, .f32⟩
  | .hbm, ⟨88, _⟩ => ⟨S4096x64, .f32⟩
  | .hbm, ⟨89, _⟩ => ⟨S1x4096x4096, .f32⟩
  | .hbm, ⟨90, _⟩ => ⟨S4096x4096, .f32⟩
  | .hbm, ⟨91, _⟩ => ⟨S4096x64, .f32⟩
  | .hbm, ⟨92, _⟩ => ⟨S1x64x64, .f32⟩
  | .hbm, ⟨93, _⟩ => ⟨S64x64, .f32⟩
  | .hbm, ⟨94, _⟩ => ⟨S4096x64, .f32⟩
  | .hbm, ⟨95, _⟩ => ⟨S1x4096x4096, .f32⟩
  | .hbm, ⟨96, _⟩ => ⟨S4096x4096, .f32⟩
  | .hbm, ⟨97, _⟩ => ⟨S4096x64, .f32⟩
  | .hbm, ⟨98, _⟩ => ⟨S1x64x64, .f32⟩
  | .hbm, ⟨99, _⟩ => ⟨S64x64, .f32⟩
  | .hbm, ⟨100, _⟩ => ⟨S4096x64, .f32⟩
  | .hbm, ⟨101, _⟩ => ⟨S4096x64, .f32⟩
  | .hbm, ⟨102, _⟩ => ⟨S1x4096x64, .f32⟩
  | .hbm, ⟨103, _⟩ => ⟨S1x4096x64, .f32⟩
  | .hbm, ⟨104, _⟩ => ⟨S2x4096x64, .f32⟩
  | .hbm, ⟨105, _⟩ => ⟨S1x2x4096x64, .f32⟩
  | .hbm, ⟨106, _⟩ => ⟨S1x2x4096x64, .f32⟩
  | .hbm, ⟨107, _⟩ => ⟨S1x2x4096x64, .f32⟩
  | .hbm, ⟨108, _⟩ => ⟨S3x2x4096x64, .f32⟩
  | .hbm, ⟨109, _⟩ => ⟨S_, .f32⟩
  | .hbm, ⟨110, _⟩ => ⟨S2x4096x64, .f32⟩
  | .hbm, ⟨111, _⟩ => ⟨S1x4096x64, .f32⟩
  | .hbm, ⟨112, _⟩ => ⟨S4096x64, .f32⟩
  | .hbm, ⟨113, _⟩ => ⟨S4096x64, .f32⟩
  | .hbm, ⟨114, _⟩ => ⟨S4096x64, .f32⟩
  | .hbm, ⟨115, _⟩ => ⟨S1x4096x64, .f32⟩
  | .hbm, ⟨116, _⟩ => ⟨S4096x64, .f32⟩
  | .hbm, ⟨117, _⟩ => ⟨S4096x64, .f32⟩
  | .hbm, ⟨118, _⟩ => ⟨S4096x64, .f32⟩
  | _, _ => ⟨S2x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_cst_0 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_cst_1 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_cst_2 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩

abbrev nD : Nat := 1
abbrev τ : Topo := Topo.v7x

variable {F : FTy → Type} [FloatOps F]

class Facts₀ : Prop where
  slices_S2x4096x64_S1x4096x64_0_0_0 : S2x4096x64.Slices ![0, 0, 0] S1x4096x64
  shapeCasts_S1x4096x64_S4096x64 : S1x4096x64.ShapeCasts S4096x64
  slices_S2x4096x64_S1x4096x64_1_0_0 : S2x4096x64.Slices ![1, 0, 0] S1x4096x64
  slices_S3x4096x4096_S1x4096x4096_0_0_0 : S3x4096x4096.Slices ![0, 0, 0] S1x4096x4096
  shapeCasts_S1x4096x4096_S4096x4096 : S1x4096x4096.ShapeCasts S4096x4096
  slices_S3x64x64_S1x64x64_0_0_0 : S3x64x64.Slices ![0, 0, 0] S1x64x64
  shapeCasts_S1x64x64_S64x64 : S1x64x64.ShapeCasts S64x64
  bcast_S_S4096x64 : S_.BroadcastsInDim S4096x64 (![] : Fin 0 → Fin S4096x64.rank)
  bcast_S4096x64_S1x4096x64_1_2 : S4096x64.BroadcastsInDim S1x4096x64 (![1, 2] : Fin 2 → Fin S1x4096x64.rank)
  concatenates_S1x4096x64_S1x4096x64_S2x4096x64_d0 : Shape.Concatenates [S1x4096x64, S1x4096x64] S2x4096x64 0
  slices_S3x4096x4096_S1x4096x4096_1_0_0 : S3x4096x4096.Slices ![1, 0, 0] S1x4096x4096
  slices_S3x64x64_S1x64x64_1_0_0 : S3x64x64.Slices ![1, 0, 0] S1x64x64
  slices_S3x4096x4096_S1x4096x4096_2_0_0 : S3x4096x4096.Slices ![2, 0, 0] S1x4096x4096
  slices_S3x64x64_S1x64x64_2_0_0 : S3x64x64.Slices ![2, 0, 0] S1x64x64
  bcast_S2x4096x64_S1x2x4096x64_1_2_3 : S2x4096x64.BroadcastsInDim S1x2x4096x64 (![1, 2, 3] : Fin 3 → Fin S1x2x4096x64.rank)
  concatenates_S1x2x4096x64_S1x2x4096x64_S1x2x4096x64_S3x2x4096x64_d0 : Shape.Concatenates [S1x2x4096x64, S1x2x4096x64, S1x2x4096x64] S3x2x4096x64 0
  reducesTo_S3x2x4096x64_S2x4096x64_d0 : S3x2x4096x64.ReducesTo [0] S2x4096x64
  h_S_ : 0 < S_.numel
  bcast_S1x64_S4096x64_0_1 : S1x64.BroadcastsInDim S4096x64 (![0, 1] : Fin 2 → Fin S4096x64.rank)
  dot_S4096x4096_S4096x64_S4096x64_1_0_0_1_n_n_wf : DotDims.WF S4096x4096 S4096x64 S4096x64 [1] [0] [0] [1] [] []
  dot_S4096x64_S64x64_S4096x64_1_0_0_1_n_n_wf : DotDims.WF S4096x64 S64x64 S4096x64 [1] [0] [0] [1] [] []

variable [Facts₀]

def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

class Facts : Prop extends Facts₀ where

variable [Facts]
-- ==== Proof.KernelBlockDef.lean ====
/-
  What one grid point of the kernel leaves in the output's 128 × 128 block, as ONE pure function of the five input
  blocks it is called with: the feature block x0 [2, 4096, 64], the two Laplacian row blocks x1, x2 [3, 128, 4096],
  the weights x3 [3, 64, 64] and the bias row x4 [1, 64]. Slab s of a block is its part at leading coordinate s.
  The body forms, for each of the three weights, P = X_r W and Q = X_i W, packs [P | Q] and [0 − Q | P] side by side,
  multiplies the Laplacian row blocks into them, adds the three results in order, and adds the bias row [b | b].
-/
import proofs.«128162_g38809324486706_cont_8to1_b_1300_7_alg».proof.Proof.Gen.KernelIdeal.Skeleton
import Idealize.ShloMosaic.Lib.Pipeline.Value

noncomputable section

namespace Cert.KernelIdeal.Hand

open Idealize.ShloMosaic Idealize.ShloMosaic.TcCoe Idealize.SL.Sem
open Cert.KernelIdeal Cert.KernelIdeal.Gen

variable {F : FTy → Type} [FloatOps F]

/-- Feature part 0 (real) and part 1 (imaginary), as [1, 4096, 64] slabs. -/
abbrev xs0 (x0 : Vec F S2x4096x64 .f32) : Vec F S1x4096x64 .f32 :=
  View.ld x0 (Rect.unit (s := S2x4096x64) ![0, 0, 0] S1x4096x64.size inb_S2x4096x64_S1x4096x64_0_0_0)
abbrev xs1 (x0 : Vec F S2x4096x64 .f32) : Vec F S1x4096x64 .f32 :=
  View.ld x0 (Rect.unit (s := S2x4096x64) ![1, 0, 0] S1x4096x64.size inb_S2x4096x64_S1x4096x64_1_0_0)
/-- Weight i, as a [1, 64, 64] slab. -/
abbrev ws0 (x3 : Vec F S3x64x64 .f32) : Vec F S1x64x64 .f32 :=
  View.ld x3 (Rect.unit (s := S3x64x64) ![0, 0, 0] S1x64x64.size inb_S3x64x64_S1x64x64_0_0_0)
abbrev ws1 (x3 : Vec F S3x64x64 .f32) : Vec F S1x64x64 .f32 :=
  View.ld x3 (Rect.unit (s := S3x64x64) ![1, 0, 0] S1x64x64.size inb_S3x64x64_S1x64x64_1_0_0)
abbrev ws2 (x3 : Vec F S3x64x64 .f32) : Vec F S1x64x64 .f32 :=
  View.ld x3 (Rect.unit (s := S3x64x64) ![2, 0, 0] S1x64x64.size inb_S3x64x64_S1x64x64_2_0_0)
/-- Laplacian i's row block, as a [1, 128, 4096] slab. -/
abbrev ls0 (x : Vec F S3x128x4096 .f32) : Vec F S1x128x4096 .f32 :=
  View.ld x (Rect.unit (s := S3x128x4096) ![0, 0, 0] S1x128x4096.size inb_S3x128x4096_S1x128x4096_0_0_0)
abbrev ls1 (x : Vec F S3x128x4096 .f32) : Vec F S1x128x4096 .f32 :=
  View.ld x (Rect.unit (s := S3x128x4096) ![1, 0, 0] S1x128x4096.size inb_S3x128x4096_S1x128x4096_1_0_0)
abbrev ls2 (x : Vec F S3x128x4096 .f32) : Vec F S1x128x4096 .f32 :=
  View.ld x (Rect.unit (s := S3x128x4096) ![2, 0, 0] S1x128x4096.size inb_S3x128x4096_S1x128x4096_2_0_0)

/-- The sum of the three packed products, before the bias: the body's first store. -/
def accOf (x0 : Vec F S2x4096x64 .f32) (x1 x2 : Vec F S3x128x4096 .f32) (x3 : Vec F S3x64x64 .f32) : FVec F S128x128 .f32 :=
  k0_pay11 (k0_pay3 (xs0 x0)) (k0_pay4 (xs1 x0))
    (k0_pay5 (xs0 x0) (xs1 x0) (ws0 x3) (ls0 x1) (ls0 x2))
    (k0_pay9 (xs0 x0) (xs1 x0) (ws1 x3))
    (k0_pay10 (xs0 x0) (xs1 x0) (ws1 x3))
    (ls1 x1) (ls1 x2) (ws2 x3) (ls2 x1) (ls2 x2)

/-- The block the point leaves: the sum read back, plus the bias row [b | b] broadcast over the 128 rows. -/
def blockOf (x0 : Vec F S2x4096x64 .f32) (x1 x2 : Vec F S3x128x4096 .f32) (x3 : Vec F S3x64x64 .f32) (x4 : Vec F S1x64 .f32) :
    FVec F S128x128 .f32 :=
  k0_pay2 x4 x4 (accOf x0 x1 x2 x3)

end Cert.KernelIdeal.Hand

end
-- ==== Proof.KernelPiece.lean ====
/-
  The kernel body's whole run, read as a value. On every grid point the body stores the sum of the three packed
  products into the output block, reads the block back, and stores it again with the bias row added; the second
  store covers the block, so what the point leaves is that second payload, whose read-back is the first payload.
  Every load of an input reads a slab of the block the point was called with.
-/
import proofs.«128162_g38809324486706_cont_8to1_b_1300_7_alg».proof.Proof.KernelBlockDef
import proofs.«128162_g38809324486706_cont_8to1_b_1300_7_alg».proof.Proof.Gen.KernelIdeal.Frame
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic Idealize.SL.Sem
open Cert.KernelIdeal Cert.KernelIdeal.Gen

variable {F : FTy → Type} [FloatOps F]

theorem hz2 : (![0, 0] : Fin 2 → Nat) = fun _ => 0 := funext fun a => by fin_cases a <;> rfl

/-- What the run leaves in the output's staging buffer is the block function of the five input blocks. -/
theorem out_eq (c : Dev nD) (i : grid0.Coords) (arg2 : Memref sig .tc .vmem S2x4096x64 .f32) (harg2 : arg2.IsWhole) (arg3 : Memref sig .tc .vmem S3x128x4096 .f32) (harg3 : arg3.IsWhole) (arg4 : Memref sig .tc .vmem S3x128x4096 .f32) (harg4 : arg4.IsWhole) (arg5 : Memref sig .tc .vmem S3x64x64 .f32) (harg5 : arg5.IsWhole) (arg6 : Memref sig .tc .vmem S1x64 .f32) (harg6 : arg6.IsWhole) (arg7 : Memref sig .tc .vmem S128x128 .f32) (harg7 : arg7.IsWhole) (hc0 : cond0_0 i) (hc1 : ¬cond0_1 i) (hc2 : cond0_2 i)
    (x0 : Vec F S2x4096x64 .f32) (x1 : Vec F S3x128x4096 .f32) (x2 : Vec F S3x128x4096 .f32) (x3 : Vec F S3x64x64 .f32) (x4 : Vec F S1x64 .f32) :
    out0_A_5 c i arg2 harg2 arg3 harg3 arg4 harg4 arg5 harg5 arg6 harg6 arg7 harg7 hc0 hc1 hc2 x0 x1 x2 x3 x4 = blockOf x0 x1 x2 x3 x4 := by
  unfold out0_A_5
  rw [View.read_writes_eq_canon _ _ _ (cover0_A_5 c i arg2 harg2 arg3 harg3 arg4 harg4 arg5 harg5 arg6 harg6 arg7 harg7 hc0 hc1 hc2 x0 x1 x2 x3 x4)]
  unfold kernelRun0_A
  dsimp only
  sl_unfold_words
  rw [View.canon_cons_unit_zero (S := S128x128) hz2]
  unfold blockOf accOf
  simp only [View.readCov_unit_zero (S := S128x128) _ hz2, View.readAt_eq_ld, harg2.read_unread, harg3.read_unread, harg4.read_unread, harg5.read_unread, harg6.read_unread, View.ld_unit_zero (S := S128x128) hz2, View.ld_unit_zero (S := S1x64) hz2]

end Cert.KernelIdeal.Hand

end
-- ==== Proof.LibPlainDot.lean ====
/-
  The matrix product of an M×K array with a K×N array, read at an output index (r, q), is the sum over the one
  contracted coordinate k of the left operand at (r, k) times the right operand at (k, q). Stated once for the plain
  dimension numbers (contract the left operand's last axis with the right operand's first, no batch axis), for a
  product into a zero accumulator inside a kernel body and for the host's product, both over the extended reals.
  A program's own dimension-number record of this form is equal to the plain one by unfolding.
-/
import Idealize.ShloMosaic.PureOps.Ideal.Laws
import Idealize.ShloMosaic.Lib.ValueIdx

noncomputable section

open scoped BigOperators

namespace PlainDot

open Idealize.ShloMosaic Idealize.ShloMosaic.ValueIdx

variable (M K N : Nat)

/-- The left operand's index at output index `j` and contraction index `q`: row of `j`, … -/
theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and the contracted coordinate. -/
theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: the contracted coordinate, … -/
theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the column of `j`. -/
theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum, re-indexed by the one contracted coordinate. -/
theorem sum_eq (x : (⟨2, ![M, K]⟩ : Shape).Idx → EReal) (w : (⟨2, ![K, N]⟩ : Shape).Idx → EReal) (j : (⟨2, ![M, N]⟩ : Shape).Idx) :
    ∑ q : (DotDims.plain M K N).contr.Idx, x ((DotDims.plain M K N).lhsIdx j q) * w ((DotDims.plain M K N).rhsIdx j q)
      = ∑ k : Fin K, x (ix2 (n0 := M) (n1 := K) ⟨(j 0).val, (j 0).isLt⟩ k) * w (ix2 (n0 := K) (n1 := N) k ⟨(j 1).val, (j 1).isLt⟩) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k)
      = ix2 (n0 := M) (n1 := K) ⟨(j 0).val, (j 0).isLt⟩ k := funext fun a => Fin.ext (by
    match a with
    | ⟨0, _⟩ => exact lhs0 M K N _ _
    | ⟨1, _⟩ => exact (lhs1 M K N _ _).trans hk)
  have er : (DotDims.plain M K N).rhsIdx j ((contrEquiv1 (DotDims.plain M K N) K rfl rfl).symm k)
      = ix2 (n0 := K) (n1 := N) k ⟨(j 1).val, (j 1).isLt⟩ := funext fun a => Fin.ext (by
    match a with
    | ⟨0, _⟩ => exact (rhs0 M K N _ _).trans hk
    | ⟨1, _⟩ => exact rhs1 M K N _ _)
  rw [el, er]

/-- A kernel's matrix product into the zero accumulator, at an index. -/
theorem matmul_zero_apply {φ₁ φ₂ : FTy} (x : FVec Ideal ⟨2, ![M, K]⟩ φ₁) (w : FVec Ideal ⟨2, ![K, N]⟩ φ₂) (j : (⟨2, ![M, N]⟩ : Shape).Idx) :
    FloatOps.matmul (DotDims.plain M K N) none x w (constant ⟨2, ![M, N]⟩ .f32 0x00000000#32) j
      = ∑ k : Fin K, x (ix2 (n0 := M) (n1 := K) ⟨(j 0).val, (j 0).isLt⟩ k) * w (ix2 (n0 := K) (n1 := N) k ⟨(j 1).val, (j 1).isLt⟩) := by
  rw [Ideal.matmul_constant_zero_apply]
  exact sum_eq M K N x w j

/-- The host's matrix product, at an index. -/
theorem dotGeneral_apply {φ₁ φ₂ : FTy} (sched : HostSchedule) (x : FVec Ideal ⟨2, ![M, K]⟩ φ₁) (w : FVec Ideal ⟨2, ![K, N]⟩ φ₂) (j : (⟨2, ![M, N]⟩ : Shape).Idx) :
    FloatOps.dotGeneral (DotDims.plain M K N) none sched x w j
      = ∑ k : Fin K, x (ix2 (n0 := M) (n1 := K) ⟨(j 0).val, (j 0).isLt⟩ k) * w (ix2 (n0 := K) (n1 := N) k ⟨(j 1).val, (j 1).isLt⟩) := by
  rw [Ideal.dotGeneral_apply]
  exact sum_eq M K N x w j

end PlainDot

end
-- ==== Proof.Spec.lean ====
/-
  The mathematics of the Chebyshev spectral graph convolution, stated over the extended reals with no program in
  sight. Inputs: node features X[s, j, k] (s = 0 the real part, s = 1 the imaginary part; 4096 nodes, 64 channels),
  three pairs of dense 4096 × 4096 Laplacians Lr[i], Li[i], three 64 × 64 weights W[i], and a bias row b[0, q].

  One side multiplies the features by the weight first and the Laplacian second,
      real(r, q) = Σ_i ( Σ_j Lr[i](r, j) · (X_r W_i)(j, q) + Σ_j Li[i](r, j) · (0 − (X_i W_i)(j, q)) ) + b(q),
  the other the Laplacian first and the weight second, negating through a product with −1,
      real(r, q) = 0 + Σ_i ( Σ_k (Lr[i] X_r)(r, k) · W_i(k, q) + Σ_k (−1 · (Li[i] X_i)(r, k)) · W_i(k, q) ) + b(q),
  and likewise for the imaginary part. When every entry is a real number the two are equal: a product of three
  matrices does not depend on which pair is multiplied first, and 0 − y = (−1) · y.
-/
import Idealize.ShloMosaic.PureOps.Ideal
import Idealize.ShloMosaic.PureOps.Ideal.Laws
import Idealize.ShloMosaic.Lib.ValueIdx

noncomputable section

open scoped BigOperators

namespace ChebSpec

open Idealize.ShloMosaic Idealize.ShloMosaic.ValueIdx

/-- The five arrays' index types. -/
abbrev XIdx := (⟨3, ![2, 4096, 64]⟩ : Shape).Idx
abbrev LIdx (R : Nat) := (⟨3, ![3, R, 4096]⟩ : Shape).Idx
abbrev WIdx := (⟨3, ![3, 64, 64]⟩ : Shape).Idx
abbrev BIdx := (⟨2, ![1, 64]⟩ : Shape).Idx

/-- The reference's literal −1.0 denotes the real −1. -/
theorem ofBits_neg_one : Ideal.ofBits .f32 0xBF800000#32 = ((-1 : ℝ) : EReal) := by
  simp [Ideal.ofBits, Ideal.ieee, -EReal.coe_mul]; norm_num

-- The number of Laplacian rows is free: 4096 for the whole arrays, 128 for one block of rows.
variable {R : Nat}
variable (X : XIdx → EReal) (Lr Li : LIdx R → EReal) (W : WIdx → EReal) (b : BIdx → EReal)

/-! ## Weight first -/

/-- (X_s W_i)(j, q): part `s` of the features times weight `i`. -/
def xw (s : Fin 2) (i : Fin 3) (j : Fin 4096) (q : Fin 64) : EReal :=
  ∑ k : Fin 64, X (ix3 s j k) * W (ix3 i k q)

/-- Term `i` of the real part: Lr[i] (X_r W_i) + Li[i] (0 − X_i W_i), at (r, q). -/
def wfRe (i : Fin 3) (r : Fin R) (q : Fin 64) : EReal :=
  (∑ j : Fin 4096, Lr (ix3 i r j) * xw X W 0 i j q) + (∑ j : Fin 4096, Li (ix3 i r j) * (0 - xw X W 1 i j q))

/-- Term `i` of the imaginary part: Lr[i] (X_i W_i) + Li[i] (X_r W_i), at (r, q). -/
def wfIm (i : Fin 3) (r : Fin R) (q : Fin 64) : EReal :=
  (∑ j : Fin 4096, Lr (ix3 i r j) * xw X W 1 i j q) + (∑ j : Fin 4096, Li (ix3 i r j) * xw X W 0 i j q)

/-- The real part, weight first: the three terms added in order, then the bias. -/
def weightFirstRe (r : Fin R) (q : Fin 64) : EReal :=
  ((wfRe X Lr Li W 0 r q + wfRe X Lr Li W 1 r q) + wfRe X Lr Li W 2 r q) + b (ix2 0 q)

/-- The imaginary part, weight first. -/
def weightFirstIm (r : Fin R) (q : Fin 64) : EReal :=
  ((wfIm X Lr Li W 0 r q + wfIm X Lr Li W 1 r q) + wfIm X Lr Li W 2 r q) + b (ix2 0 q)

/-! ## Laplacian first -/

/-- (L[i] X_s)(r, k): Laplacian `i` times part `s` of the features. -/
def lx (L : LIdx R → EReal) (i : Fin 3) (s : Fin 2) (r : Fin R) (k : Fin 64) : EReal :=
  ∑ j : Fin 4096, L (ix3 i r j) * X (ix3 s j k)

/-- Term `i` of the real part: (Lr[i] X_r) W_i + (−1 · (Li[i] X_i)) W_i, at (r, q). -/
def lfRe (i : Fin 3) (r : Fin R) (q : Fin 64) : EReal :=
  (∑ k : Fin 64, lx X Lr i 0 r k * W (ix3 i k q)) + (∑ k : Fin 64, (((-1 : ℝ) : EReal) * lx X Li i 1 r k) * W (ix3 i k q))

/-- Term `i` of the imaginary part: (Li[i] X_r) W_i + (Lr[i] X_i) W_i, at (r, q). -/
def lfIm (i : Fin 3) (r : Fin R) (q : Fin 64) : EReal :=
  (∑ k : Fin 64, lx X Li i 0 r k * W (ix3 i k q)) + (∑ k : Fin 64, lx X Lr i 1 r k * W (ix3 i k q))

/-- The real part, Laplacian first: zero plus the sum of the three terms, then the bias. -/
def laplacianFirstRe (r : Fin R) (q : Fin 64) : EReal :=
  ((0 : EReal) + ∑ i : Fin 3, lfRe X Lr Li W i r q) + b (ix2 0 q)

/-- The imaginary part, Laplacian first. -/
def laplacianFirstIm (r : Fin R) (q : Fin 64) : EReal :=
  ((0 : EReal) + ∑ i : Fin 3, lfIm X Lr Li W i r q) + b (ix2 0 q)

/-! ## A block of rows -/

/-- Rows `base + p` (p < R') of the Laplacians, as arrays of R' rows, give the same weight-first values as the
    whole arrays read at row `base + p`: the formulas read the Laplacians at one row only. -/
theorem weightFirstRe_rows {R' : Nat} (lr li : LIdx R' → EReal) (base : Nat) (hb : base + R' ≤ R)
    (hlr : ∀ (i : Fin 3) (p : Fin R') (j : Fin 4096), lr (ix3 i p j) = Lr (ix3 i ⟨base + p.val, by have := p.isLt; omega⟩ j))
    (hli : ∀ (i : Fin 3) (p : Fin R') (j : Fin 4096), li (ix3 i p j) = Li (ix3 i ⟨base + p.val, by have := p.isLt; omega⟩ j))
    (p : Fin R') (q : Fin 64) :
    weightFirstRe X lr li W b p q = weightFirstRe X Lr Li W b ⟨base + p.val, by have := p.isLt; omega⟩ q := by
  simp only [weightFirstRe, wfRe, hlr, hli]

theorem weightFirstIm_rows {R' : Nat} (lr li : LIdx R' → EReal) (base : Nat) (hb : base + R' ≤ R)
    (hlr : ∀ (i : Fin 3) (p : Fin R') (j : Fin 4096), lr (ix3 i p j) = Lr (ix3 i ⟨base + p.val, by have := p.isLt; omega⟩ j))
    (hli : ∀ (i : Fin 3) (p : Fin R') (j : Fin 4096), li (ix3 i p j) = Li (ix3 i ⟨base + p.val, by have := p.isLt; omega⟩ j))
    (p : Fin R') (q : Fin 64) :
    weightFirstIm X lr li W b p q = weightFirstIm X Lr Li W b ⟨base + p.val, by have := p.isLt; omega⟩ q := by
  simp only [weightFirstIm, wfIm, hlr, hli]

/-! ## The two orders agree on real entries -/

/-- Every entry of an array is a real number (neither infinity). -/
def AllReal {ι : Type} (f : ι → EReal) : Prop := ∀ i, ∃ x : ℝ, f i = (x : EReal)

end ChebSpec

end
-- ==== Proof.KernelBlockAt.lean ====
/-
  The block a grid point leaves, read at an entry, over the extended reals. Column q < 64 of the 128 × 128 block is
  the real part and column 64 + q the imaginary part of the weight-first convolution (ChebSpec.weightFirstRe /
  weightFirstIm) of the five input blocks, at row p of the 128 Laplacian rows the point was given: a change of float
  format is the identity, a matrix product into the zero accumulator is the sum over the contracted coordinate, the
  side-by-side packing [P | Q] reads P left of column 64 and Q from it on, and the bias row [b | b] reads b(q) in
  both halves.
-/
import proofs.«128162_g38809324486706_cont_8to1_b_1300_7_alg».proof.Proof.KernelBlockDef
import proofs.«128162_g38809324486706_cont_8to1_b_1300_7_alg».proof.Proof.LibPlainDot
import proofs.«128162_g38809324486706_cont_8to1_b_1300_7_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Hand

open Idealize.ShloMosaic Idealize.ShloMosaic.TcCoe Idealize.ShloMosaic.ValueIdx Idealize.SL.Sem
open Cert.KernelIdeal Cert.KernelIdeal.Gen ChebSpec

/-! ## Slabs: a unit-stride load at leading offset i reads the array at leading coordinate i -/

theorem xs0_apply (x : Vec Ideal S2x4096x64 .f32) (j : Fin 4096) (k : Fin 64) : xs0 x (ix3 0 j k) = x (ix3 0 j k) := by
  show x _ = x _
  refine congrArg x (funext fun a => Fin.ext ?_)
  match a with
  | ⟨0, _⟩ => rfl
  | ⟨1, _⟩ => exact (Nat.zero_add _).trans (Nat.one_mul _)
  | ⟨2, _⟩ => exact (Nat.zero_add _).trans (Nat.one_mul _)

theorem xs1_apply (x : Vec Ideal S2x4096x64 .f32) (j : Fin 4096) (k : Fin 64) : xs1 x (ix3 0 j k) = x (ix3 1 j k) := by
  show x _ = x _
  refine congrArg x (funext fun a => Fin.ext ?_)
  match a with
  | ⟨0, _⟩ => rfl
  | ⟨1, _⟩ => exact (Nat.zero_add _).trans (Nat.one_mul _)
  | ⟨2, _⟩ => exact (Nat.zero_add _).trans (Nat.one_mul _)

theorem ws0_apply (x : Vec Ideal S3x64x64 .f32) (k q : Fin 64) : ws0 x (ix3 0 k q) = x (ix3 0 k q) := by
  show x _ = x _
  refine congrArg x (funext fun a => Fin.ext ?_)
  match a with
  | ⟨0, _⟩ => rfl
  | ⟨1, _⟩ => exact (Nat.zero_add _).trans (Nat.one_mul _)
  | ⟨2, _⟩ => exact (Nat.zero_add _).trans (Nat.one_mul _)

theorem ws1_apply (x : Vec Ideal S3x64x64 .f32) (k q : Fin 64) : ws1 x (ix3 0 k q) = x (ix3 1 k q) := by
  show x _ = x _
  refine congrArg x (funext fun a => Fin.ext ?_)
  match a with
  | ⟨0, _⟩ => rfl
  | ⟨1, _⟩ => exact (Nat.zero_add _).trans (Nat.one_mul _)
  | ⟨2, _⟩ => exact (Nat.zero_add _).trans (Nat.one_mul _)

theorem ws2_apply (x : Vec Ideal S3x64x64 .f32) (k q : Fin 64) : ws2 x (ix3 0 k q) = x (ix3 2 k q) := by
  show x _ = x _
  refine congrArg x (funext fun a => Fin.ext ?_)
  match a with
  | ⟨0, _⟩ => rfl
  | ⟨1, _⟩ => exact (Nat.zero_add _).trans (Nat.one_mul _)
  | ⟨2, _⟩ => exact (Nat.zero_add _).trans (Nat.one_mul _)

theorem ls0_apply (x : Vec Ideal S3x128x4096 .f32) (p : Fin 128) (j : Fin 4096) : ls0 x (ix3 0 p j) = x (ix3 0 p j) := by
  show x _ = x _
  refine congrArg x (funext fun a => Fin.ext ?_)
  match a with
  | ⟨0, _⟩ => rfl
  | ⟨1, _⟩ => exact (Nat.zero_add _).trans (Nat.one_mul _)
  | ⟨2, _⟩ => exact (Nat.zero_add _).trans (Nat.one_mul _)

theorem ls1_apply (x : Vec Ideal S3x128x4096 .f32) (p : Fin 128) (j : Fin 4096) : ls1 x (ix3 0 p j) = x (ix3 1 p j) := by
  show x _ = x _
  refine congrArg x (funext fun a => Fin.ext ?_)
  match a with
  | ⟨0, _⟩ => rfl
  | ⟨1, _⟩ => exact (Nat.zero_add _).trans (Nat.one_mul _)
  | ⟨2, _⟩ => exact (Nat.zero_add _).trans (Nat.one_mul _)

theorem ls2_apply (x : Vec Ideal S3x128x4096 .f32) (p : Fin 128) (j : Fin 4096) : ls2 x (ix3 0 p j) = x (ix3 2 p j) := by
  show x _ = x _
  refine congrArg x (funext fun a => Fin.ext ?_)
  match a with
  | ⟨0, _⟩ => rfl
  | ⟨1, _⟩ => exact (Nat.zero_add _).trans (Nat.one_mul _)
  | ⟨2, _⟩ => exact (Nat.zero_add _).trans (Nat.one_mul _)

/-! ## Dropping the leading unit axis of a slab -/

theorem dropL (A : Vec Ideal S1x128x4096 .f32) (p : Fin 128) (j : Fin 4096) :
    (shapeCast S128x4096 A shapeCasts_S1x128x4096_S128x4096 : FVec Ideal S128x4096 .f32) (ix2 p j) = A (ix3 0 p j) := by
  refine (shapeCast_dropUnit_apply ![128, 4096] A shapeCasts_S1x128x4096_S128x4096 (ix2 p j)).trans ?_
  refine congrArg A (funext fun a => ?_)
  match a with
  | ⟨0, _⟩ => rfl
  | ⟨1, _⟩ => rfl
  | ⟨2, _⟩ => rfl

theorem dropX (X : Vec Ideal S1x4096x64 .f32) (j : Fin 4096) (k : Fin 64) :
    (shapeCast S4096x64 X shapeCasts_S1x4096x64_S4096x64 : FVec Ideal S4096x64 .f32) (ix2 j k) = X (ix3 0 j k) := by
  refine (shapeCast_dropUnit_apply ![4096, 64] X shapeCasts_S1x4096x64_S4096x64 (ix2 j k)).trans ?_
  refine congrArg X (funext fun a => ?_)
  match a with
  | ⟨0, _⟩ => rfl
  | ⟨1, _⟩ => rfl
  | ⟨2, _⟩ => rfl

theorem dropW (W : Vec Ideal S1x64x64 .f32) (k q : Fin 64) :
    (shapeCast S64x64 W shapeCasts_S1x64x64_S64x64 : FVec Ideal S64x64 .f32) (ix2 k q) = W (ix3 0 k q) := by
  refine (shapeCast_dropUnit_apply ![64, 64] W shapeCasts_S1x64x64_S64x64 (ix2 k q)).trans ?_
  refine congrArg W (funext fun a => ?_)
  match a with
  | ⟨0, _⟩ => rfl
  | ⟨1, _⟩ => rfl
  | ⟨2, _⟩ => rfl

/-! ## The side-by-side packing [P | Q] at a left and at a right column -/

theorem packL (P Q : FVec Ideal S4096x64 .f32) (j : Fin 4096) (q : Fin 64) :
    concatenate S4096x128 1 [⟨S4096x64, P⟩, ⟨S4096x64, Q⟩] concatenates_S4096x64_S4096x64_S4096x128_d1
      (ix2 j (⟨q.val, by have := q.isLt; omega⟩ : Fin 128)) = P (ix2 j q) := by
  refine concatenate_pair_apply_left (t := S4096x128) (s₁ := S4096x64) (s₂ := S4096x64) 1 P Q _ _ rfl (ix2 j q) ?_
  intro b
  match b with
  | ⟨0, _⟩ => rfl
  | ⟨1, _⟩ => rfl

theorem packR (P Q : FVec Ideal S4096x64 .f32) (j : Fin 4096) (q : Fin 64) :
    concatenate S4096x128 1 [⟨S4096x64, P⟩, ⟨S4096x64, Q⟩] concatenates_S4096x64_S4096x64_S4096x128_d1
      (ix2 j (⟨64 + q.val, by have := q.isLt; omega⟩ : Fin 128)) = Q (ix2 j q) := by
  refine concatenate_pair_apply_right (t := S4096x128) (s₁ := S4096x64) (s₂ := S4096x64) 1 P Q _ _ rfl rfl (ix2 j q) ?_ ?_
  · intro b hb
    match b with
    | ⟨0, _⟩ => rfl
    | ⟨1, _⟩ => exact absurd rfl hb
  · show q.val + 64 = 64 + q.val
    omega

/-! ## The two matrix products of the body, at an index -/

theorem dotL_eq : dot_S128x4096_S4096x128_S128x128_1_0_0_1_n_n = DotDims.plain 128 4096 128 := rfl
theorem dotX_eq : dot_S4096x64_S64x64_S4096x64_1_0_0_1_n_n = DotDims.plain 4096 64 64 := rfl

theorem mmL {φ₁ φ₂ : FTy} (A : FVec Ideal S128x4096 φ₁) (R : FVec Ideal S4096x128 φ₂) (p c : Fin 128) :
    matmul dot_S128x4096_S4096x128_S128x128_1_0_0_1_n_n none A R (constant (F := Ideal) S128x128 .f32 0x00000000#32) (ix2 p c)
      = ∑ j : Fin 4096, A (ix2 p j) * R (ix2 j c) := by
  rw [dotL_eq]
  exact PlainDot.matmul_zero_apply 128 4096 128 A R (ix2 p c)

theorem mmX {φ₁ φ₂ : FTy} (X : FVec Ideal S4096x64 φ₁) (W : FVec Ideal S64x64 φ₂) (j : Fin 4096) (q : Fin 64) :
    matmul dot_S4096x64_S64x64_S4096x64_1_0_0_1_n_n none X W (constant (F := Ideal) S4096x64 .f32 0x00000000#32) (ix2 j q)
      = ∑ k : Fin 64, X (ix2 j k) * W (ix2 k q) := by
  rw [dotX_eq]
  exact PlainDot.matmul_zero_apply 4096 64 64 X W (ix2 j q)

/-! ## One weight's two feature products, and one of the three terms -/

/-- X W: a feature slab times a weight slab, both with their unit axis cast away, into the zero accumulator. -/
def pq (X : Vec Ideal S1x4096x64 .f32) (W : Vec Ideal S1x64x64 .f32) : FVec Ideal S4096x64 .f32 :=
  matmul dot_S4096x64_S64x64_S4096x64_1_0_0_1_n_n none
    (shapeCast S4096x64 X shapeCasts_S1x4096x64_S4096x64 : FVec Ideal S4096x64 .f32)
    (shapeCast S64x64 W shapeCasts_S1x64x64_S64x64 : FVec Ideal S64x64 .f32)
    (constant S4096x64 .f32 0x00000000#32)

theorem pq_apply (X : Vec Ideal S1x4096x64 .f32) (W : Vec Ideal S1x64x64 .f32) (j : Fin 4096) (q : Fin 64) :
    pq X W (ix2 j q) = ∑ k : Fin 64, X (ix3 0 j k) * W (ix3 0 k q) := by
  refine (mmX _ _ j q).trans (Finset.sum_congr rfl fun k _ => ?_)
  exact congrArg₂ (· * ·) (dropX X j k) (dropW W k q)

/-- A [P | Q] + B [0 − Q | P]: the two Laplacian row slabs times the two packings, added. -/
def term (P Q : FVec Ideal S4096x64 .f32) (A B : Vec Ideal S1x128x4096 .f32) : FVec Ideal S128x128 .f32 :=
  addf
    (matmul dot_S128x4096_S4096x128_S128x128_1_0_0_1_n_n none
      (truncf .bf16 (shapeCast S128x4096 A shapeCasts_S1x128x4096_S128x4096 : FVec Ideal S128x4096 .f32) bitsLt_bf16_f32)
      (truncf .bf16 (concatenate S4096x128 1 [⟨S4096x64, P⟩, ⟨S4096x64, Q⟩] concatenates_S4096x64_S4096x64_S4096x128_d1 : FVec Ideal S4096x128 .f32) bitsLt_bf16_f32)
      (constant S128x128 .f32 0x00000000#32))
    (matmul dot_S128x4096_S4096x128_S128x128_1_0_0_1_n_n none
      (truncf .bf16 (shapeCast S128x4096 B shapeCasts_S1x128x4096_S128x4096 : FVec Ideal S128x4096 .f32) bitsLt_bf16_f32)
      (truncf .bf16 (concatenate S4096x128 1
        [⟨S4096x64, subf (broadcast S4096x64 (Scalar.ofBits (F := Ideal) .f32 0x00000000#32)) Q⟩, ⟨S4096x64, P⟩]
        concatenates_S4096x64_S4096x64_S4096x128_d1 : FVec Ideal S4096x128 .f32) bitsLt_bf16_f32)
      (constant S128x128 .f32 0x00000000#32))

/-- The term at a left column q: ∑ A P + ∑ B (0 − Q). -/
theorem term_re (P Q : FVec Ideal S4096x64 .f32) (A B : Vec Ideal S1x128x4096 .f32) (p : Fin 128) (q : Fin 64) :
    term P Q A B (ix2 p (⟨q.val, by have := q.isLt; omega⟩ : Fin 128))
      = (∑ j : Fin 4096, A (ix3 0 p j) * P (ix2 j q)) + (∑ j : Fin 4096, B (ix3 0 p j) * (0 - Q (ix2 j q))) := by
  refine congrArg₂ (· + ·) ?_ ?_
  · refine (mmL _ _ p _).trans (Finset.sum_congr rfl fun j _ => ?_)
    exact congrArg₂ (· * ·) (dropL A p j) (packL P Q j q)
  · refine (mmL _ _ p _).trans (Finset.sum_congr rfl fun j _ => ?_)
    refine congrArg₂ (· * ·) (dropL B p j) ((packL _ P j q).trans ?_)
    show Ideal.ofBits .f32 0x00000000#32 - Q (ix2 j q) = 0 - Q (ix2 j q)
    rw [Ideal.ofBits_zero_f32]

/-- The term at a right column 64 + q: ∑ A Q + ∑ B P. -/
theorem term_im (P Q : FVec Ideal S4096x64 .f32) (A B : Vec Ideal S1x128x4096 .f32) (p : Fin 128) (q : Fin 64) :
    term P Q A B (ix2 p (⟨64 + q.val, by have := q.isLt; omega⟩ : Fin 128))
      = (∑ j : Fin 4096, A (ix3 0 p j) * Q (ix2 j q)) + (∑ j : Fin 4096, B (ix3 0 p j) * P (ix2 j q)) := by
  refine congrArg₂ (· + ·) ?_ ?_
  · refine (mmL _ _ p _).trans (Finset.sum_congr rfl fun j _ => ?_)
    exact congrArg₂ (· * ·) (dropL A p j) (packR P Q j q)
  · refine (mmL _ _ p _).trans (Finset.sum_congr rfl fun j _ => ?_)
    exact congrArg₂ (· * ·) (dropL B p j) (packR _ P j q)

/-- The sum before the bias is the three terms added in order. -/
theorem accOf_eq (x0 : Vec Ideal S2x4096x64 .f32) (x1 x2 : Vec Ideal S3x128x4096 .f32) (x3 : Vec Ideal S3x64x64 .f32) :
    accOf (F := Ideal) x0 x1 x2 x3
      = addf (addf (term (pq (xs0 x0) (ws0 x3)) (pq (xs1 x0) (ws0 x3)) (ls0 x1) (ls0 x2))
                   (term (pq (xs0 x0) (ws1 x3)) (pq (xs1 x0) (ws1 x3)) (ls1 x1) (ls1 x2)))
             (term (pq (xs0 x0) (ws2 x3)) (pq (xs1 x0) (ws2 x3)) (ls2 x1) (ls2 x2)) := rfl

/-! ## The bias row [b | b], broadcast over the rows -/

theorem biasL (b : Vec Ideal S1x64 .f32) (p : Fin 128) (q : Fin 64) :
    (broadcastTo S128x128
      (concatenate S1x128 1 [⟨S1x64, b⟩, ⟨S1x64, b⟩] concatenates_S1x64_S1x64_S1x128_d1 : FVec Ideal S1x128 .f32)
      broadcasts_S1x128_S128x128 : FVec Ideal S128x128 .f32) (ix2 p (⟨q.val, by have := q.isLt; omega⟩ : Fin 128))
      = b (ix2 0 q) := by
  refine (broadcastTo_apply (s := S1x128) (t := S128x128) _ broadcasts_S1x128_S128x128 _
    (ix2 (0 : Fin 1) (⟨q.val, by have := q.isLt; omega⟩ : Fin 128)) ?_).trans ?_
  · intro a
    match a with
    | ⟨0, _⟩ => rfl
    | ⟨1, _⟩ => rfl
  · refine concatenate_pair_apply_left (t := S1x128) (s₁ := S1x64) (s₂ := S1x64) 1 b b _ _ rfl (ix2 0 q) ?_
    intro c
    match c with
    | ⟨0, _⟩ => rfl
    | ⟨1, _⟩ => rfl

theorem biasR (b : Vec Ideal S1x64 .f32) (p : Fin 128) (q : Fin 64) :
    (broadcastTo S128x128
      (concatenate S1x128 1 [⟨S1x64, b⟩, ⟨S1x64, b⟩] concatenates_S1x64_S1x64_S1x128_d1 : FVec Ideal S1x128 .f32)
      broadcasts_S1x128_S128x128 : FVec Ideal S128x128 .f32) (ix2 p (⟨64 + q.val, by have := q.isLt; omega⟩ : Fin 128))
      = b (ix2 0 q) := by
  refine (broadcastTo_apply (s := S1x128) (t := S128x128) _ broadcasts_S1x128_S128x128 _
    (ix2 (0 : Fin 1) (⟨64 + q.val, by have := q.isLt; omega⟩ : Fin 128)) ?_).trans ?_
  · intro a
    match a with
    | ⟨0, _⟩ => rfl
    | ⟨1, _⟩ => rfl
  · refine concatenate_pair_apply_right (t := S1x128) (s₁ := S1x64) (s₂ := S1x64) 1 b b _ _ rfl rfl (ix2 0 q) ?_ ?_
    · intro c hc
      match c with
      | ⟨0, _⟩ => rfl
      | ⟨1, _⟩ => exact absurd rfl hc
    · show q.val + 64 = 64 + q.val
      omega

/-- The block at an entry: the sum there plus the bias row there. -/
theorem blockOf_apply (x0 : Vec Ideal S2x4096x64 .f32) (x1 x2 : Vec Ideal S3x128x4096 .f32) (x3 : Vec Ideal S3x64x64 .f32)
    (x4 : Vec Ideal S1x64 .f32) (i : S128x128.Idx) :
    blockOf (F := Ideal) x0 x1 x2 x3 x4 i
      = accOf (F := Ideal) x0 x1 x2 x3 i
        + (broadcastTo S128x128
            (concatenate S1x128 1 [⟨S1x64, x4⟩, ⟨S1x64, x4⟩] concatenates_S1x64_S1x64_S1x128_d1 : FVec Ideal S1x128 .f32)
            broadcasts_S1x128_S128x128 : FVec Ideal S128x128 .f32) i := by
  show (shapeCast S128x128 (accOf (F := Ideal) x0 x1 x2 x3) shapeCasts_S128x128_S128x128 : FVec Ideal S128x128 .f32) i + _ = _
  rw [shapeCast_self]

/-- Column q of the left half: the real part at block row p, channel q. -/
theorem blockOf_re (x0 : Vec Ideal S2x4096x64 .f32) (x1 x2 : Vec Ideal S3x128x4096 .f32) (x3 : Vec Ideal S3x64x64 .f32)
    (x4 : Vec Ideal S1x64 .f32) (p : Fin 128) (q : Fin 64) :
    blockOf (F := Ideal) x0 x1 x2 x3 x4 (ix2 p (⟨q.val, by have := q.isLt; omega⟩ : Fin 128))
      = weightFirstRe (R := 128) x0 x1 x2 x3 x4 p q := by
  refine (blockOf_apply x0 x1 x2 x3 x4 _).trans ?_
  rw [accOf_eq]
  simp only [weightFirstRe, wfRe, xw]
  refine congrArg₂ (· + ·) (congrArg₂ (· + ·) (congrArg₂ (· + ·) ?_ ?_) ?_) (biasL x4 p q)
  · refine (term_re _ _ _ _ p q).trans (congrArg₂ (· + ·) ?_ ?_)
    · refine Finset.sum_congr rfl fun j _ => congrArg₂ (· * ·) (ls0_apply x1 p j) ((pq_apply _ _ j q).trans ?_)
      exact Finset.sum_congr rfl fun k _ => congrArg₂ (· * ·) (xs0_apply x0 j k) (ws0_apply x3 k q)
    · refine Finset.sum_congr rfl fun j _ => congrArg₂ (· * ·) (ls0_apply x2 p j) (congrArg (0 - ·) ((pq_apply _ _ j q).trans ?_))
      exact Finset.sum_congr rfl fun k _ => congrArg₂ (· * ·) (xs1_apply x0 j k) (ws0_apply x3 k q)
  · refine (term_re _ _ _ _ p q).trans (congrArg₂ (· + ·) ?_ ?_)
    · refine Finset.sum_congr rfl fun j _ => congrArg₂ (· * ·) (ls1_apply x1 p j) ((pq_apply _ _ j q).trans ?_)
      exact Finset.sum_congr rfl fun k _ => congrArg₂ (· * ·) (xs0_apply x0 j k) (ws1_apply x3 k q)
    · refine Finset.sum_congr rfl fun j _ => congrArg₂ (· * ·) (ls1_apply x2 p j) (congrArg (0 - ·) ((pq_apply _ _ j q).trans ?_))
      exact Finset.sum_congr rfl fun k _ => congrArg₂ (· * ·) (xs1_apply x0 j k) (ws1_apply x3 k q)
  · refine (term_re _ _ _ _ p q).trans (congrArg₂ (· + ·) ?_ ?_)
    · refine Finset.sum_congr rfl fun j _ => congrArg₂ (· * ·) (ls2_apply x1 p j) ((pq_apply _ _ j q).trans ?_)
      exact Finset.sum_congr rfl fun k _ => congrArg₂ (· * ·) (xs0_apply x0 j k) (ws2_apply x3 k q)
    · refine Finset.sum_congr rfl fun j _ => congrArg₂ (· * ·) (ls2_apply x2 p j) (congrArg (0 - ·) ((pq_apply _ _ j q).trans ?_))
      exact Finset.sum_congr rfl fun k _ => congrArg₂ (· * ·) (xs1_apply x0 j k) (ws2_apply x3 k q)

/-- Column 64 + q of the right half: the imaginary part at block row p, channel q. -/
theorem blockOf_im (x0 : Vec Ideal S2x4096x64 .f32) (x1 x2 : Vec Ideal S3x128x4096 .f32) (x3 : Vec Ideal S3x64x64 .f32)
    (x4 : Vec Ideal S1x64 .f32) (p : Fin 128) (q : Fin 64) :
    blockOf (F := Ideal) x0 x1 x2 x3 x4 (ix2 p (⟨64 + q.val, by have := q.isLt; omega⟩ : Fin 128))
      = weightFirstIm (R := 128) x0 x1 x2 x3 x4 p q := by
  refine (blockOf_apply x0 x1 x2 x3 x4 _).trans ?_
  rw [accOf_eq]
  simp only [weightFirstIm, wfIm, xw]
  refine congrArg₂ (· + ·) (congrArg₂ (· + ·) (congrArg₂ (· + ·) ?_ ?_) ?_) (biasR x4 p q)
  · refine (term_im _ _ _ _ p q).trans (congrArg₂ (· + ·) ?_ ?_)
    · refine Finset.sum_congr rfl fun j _ => congrArg₂ (· * ·) (ls0_apply x1 p j) ((pq_apply _ _ j q).trans ?_)
      exact Finset.sum_congr rfl fun k _ => congrArg₂ (· * ·) (xs1_apply x0 j k) (ws0_apply x3 k q)
    · refine Finset.sum_congr rfl fun j _ => congrArg₂ (· * ·) (ls0_apply x2 p j) ((pq_apply _ _ j q).trans ?_)
      exact Finset.sum_congr rfl fun k _ => congrArg₂ (· * ·) (xs0_apply x0 j k) (ws0_apply x3 k q)
  · refine (term_im _ _ _ _ p q).trans (congrArg₂ (· + ·) ?_ ?_)
    · refine Finset.sum_congr rfl fun j _ => congrArg₂ (· * ·) (ls1_apply x1 p j) ((pq_apply _ _ j q).trans ?_)
      exact Finset.sum_congr rfl fun k _ => congrArg₂ (· * ·) (xs1_apply x0 j k) (ws1_apply x3 k q)
    · refine Finset.sum_congr rfl fun j _ => congrArg₂ (· * ·) (ls1_apply x2 p j) ((pq_apply _ _ j q).trans ?_)
      exact Finset.sum_congr rfl fun k _ => congrArg₂ (· * ·) (xs0_apply x0 j k) (ws1_apply x3 k q)
  · refine (term_im _ _ _ _ p q).trans (congrArg₂ (· + ·) ?_ ?_)
    · refine Finset.sum_congr rfl fun j _ => congrArg₂ (· * ·) (ls2_apply x1 p j) ((pq_apply _ _ j q).trans ?_)
      exact Finset.sum_congr rfl fun k _ => congrArg₂ (· * ·) (xs1_apply x0 j k) (ws2_apply x3 k q)
    · refine Finset.sum_congr rfl fun j _ => congrArg₂ (· * ·) (ls2_apply x2 p j) ((pq_apply _ _ j q).trans ?_)
      exact Finset.sum_congr rfl fun k _ => congrArg₂ (· * ·) (xs0_apply x0 j k) (ws2_apply x3 k q)

end Cert.KernelIdeal.Hand

end
-- ==== Proof.KernelArray.lean ====
/-
  The kernel's result, as arrays. Grid point t (of 32) is called with the whole feature, weight and bias arrays and
  with rows 128 t … 128 t + 127 of the six Laplacians, and leaves in the output's 128 × 128 block the weight-first
  convolution at those rows: the real part in columns 0 … 63, the imaginary part in columns 64 … 127. Each point's
  block is written back to rows 128 t … of the program's [4096, 128] result buffer; the 32 row blocks cover it, so
  after the region it holds the packed array of the whole convolution. The two lines after the region slice columns
  0 … 63 and 64 … 127 out of it: the program's two results are the real and the imaginary part.
-/
import proofs.«128162_g38809324486706_cont_8to1_b_1300_7_alg».proof.Proof.KernelPiece
import proofs.«128162_g38809324486706_cont_8to1_b_1300_7_alg».proof.Proof.KernelBlockAt
import proofs.«128162_g38809324486706_cont_8to1_b_1300_7_alg».proof.Proof.Gen.KernelIdeal.Frame
import proofs.«128162_g38809324486706_cont_8to1_b_1300_7_alg».proof.Proof.Spec
import Idealize.ShloMosaic.Lib.Pipeline.Value
import Idealize.ShloMosaic.Lib.StableHlo.Run
import Idealize.ShloMosaic.Lib.Tactic

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen ChebSpec

variable (m : (ℓ : Loc nD τ sig) → Buf (Elt Ideal) ℓ) (ρ : Dev nD → PrngReg)

/-! ## The argument arrays and the packed result -/

/-- The five argument arrays on core `c`. -/
abbrev aX (c : Dev nD) : Vec Ideal S2x4096x64 .f32 := m ((c : Thread nD τ).loc main_arg0)
abbrev aLr (c : Dev nD) : Vec Ideal S3x4096x4096 .f32 := m ((c : Thread nD τ).loc main_arg1)
abbrev aLi (c : Dev nD) : Vec Ideal S3x4096x4096 .f32 := m ((c : Thread nD τ).loc main_arg2)
abbrev aW (c : Dev nD) : Vec Ideal S3x64x64 .f32 := m ((c : Thread nD τ).loc main_arg3)
abbrev aB (c : Dev nD) : Vec Ideal S1x64 .f32 := m ((c : Thread nD τ).loc main_arg4)

/-- The real part of the weight-first convolution of the argument arrays, as an array [4096, 64]. -/
def outRe (c : Dev nD) : S4096x64.Idx → EReal := fun j =>
  weightFirstRe (R := 4096) (aX m c) (aLr m c) (aLi m c) (aW m c) (aB m c) ⟨(j 0).val, idx2_lt0 j⟩ ⟨(j 1).val, idx2_lt1 j⟩
/-- The imaginary part. -/
def outIm (c : Dev nD) : S4096x64.Idx → EReal := fun j =>
  weightFirstIm (R := 4096) (aX m c) (aLr m c) (aLi m c) (aW m c) (aB m c) ⟨(j 0).val, idx2_lt0 j⟩ ⟨(j 1).val, idx2_lt1 j⟩

/-- The kernel's own result array [4096, 128]: the real part in columns 0 … 63, the imaginary part in 64 … 127. -/
def packed (c : Dev nD) : S4096x128.Idx → EReal := fun j =>
  if h : (j 1).val < 64 then
    weightFirstRe (R := 4096) (aX m c) (aLr m c) (aLi m c) (aW m c) (aB m c) ⟨(j 0).val, idx2_lt0 j⟩ ⟨(j 1).val, h⟩
  else
    weightFirstIm (R := 4096) (aX m c) (aLr m c) (aLi m c) (aW m c) (aB m c) ⟨(j 0).val, idx2_lt0 j⟩
      ⟨(j 1).val - 64, by have := idx2_lt1 j; omega⟩

theorem outRe_apply (c : Dev nD) (r : Fin 4096) (q : Fin 64) :
    outRe m c (ix2 r q) = weightFirstRe (R := 4096) (aX m c) (aLr m c) (aLi m c) (aW m c) (aB m c) r q := rfl

theorem outIm_apply (c : Dev nD) (r : Fin 4096) (q : Fin 64) :
    outIm m c (ix2 r q) = weightFirstIm (R := 4096) (aX m c) (aLr m c) (aLi m c) (aW m c) (aB m c) r q := rfl

theorem packed_left (c : Dev nD) (r : Fin 4096) (q : Fin 64) :
    packed m c (ix2 r (⟨q.val, by have := q.isLt; omega⟩ : Fin 128))
      = weightFirstRe (R := 4096) (aX m c) (aLr m c) (aLi m c) (aW m c) (aB m c) r q := by
  unfold packed
  rw [dif_pos (show ((ix2 r (⟨q.val, by have := q.isLt; omega⟩ : Fin 128) : S4096x128.Idx) 1).val < 64 from q.isLt)]

theorem packed_right (c : Dev nD) (r : Fin 4096) (q : Fin 64) :
    packed m c (ix2 r (⟨64 + q.val, by have := q.isLt; omega⟩ : Fin 128))
      = weightFirstIm (R := 4096) (aX m c) (aLr m c) (aLi m c) (aW m c) (aB m c) r q := by
  unfold packed
  rw [dif_neg (show ¬((ix2 r (⟨64 + q.val, by have := q.isLt; omega⟩ : Fin 128) : S4096x128.Idx) 1).val < 64 from by
    show ¬(64 + q.val < 64); omega)]
  congr 1
  apply Fin.ext
  show 64 + q.val - 64 = q.val
  omega

/-! ## The blocks a grid point is called with -/

/-- Where each window's block sits at point `t`: the features, the weights and the bias are one block each; the
    Laplacians' and the result's row block is the point's number. Decided over the 32 points. -/
theorem idx_facts : ∀ t : Fin cfg0.N,
    win0_0.index t (0 : Fin 3) = 0 ∧ win0_0.index t (1 : Fin 3) = 0 ∧ win0_0.index t (2 : Fin 3) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = t.val ∧ win0_2.index t (2 : Fin 3) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 32 := by have h : cfg0.N = 32 := N_0; have := t.isLt; omega

/-- The input blocks at point `t`, at their literal types. -/
abbrev blk0 (c : Dev nD) (t : Fin cfg0.N) : Vec Ideal S2x4096x64 .f32 := iblk m c 0 t
abbrev blk1 (c : Dev nD) (t : Fin cfg0.N) : Vec Ideal S3x128x4096 .f32 := iblk m c 1 t
abbrev blk2 (c : Dev nD) (t : Fin cfg0.N) : Vec Ideal S3x128x4096 .f32 := iblk m c 2 t
abbrev blk3 (c : Dev nD) (t : Fin cfg0.N) : Vec Ideal S3x64x64 .f32 := iblk m c 3 t
abbrev blk4 (c : Dev nD) (t : Fin cfg0.N) : Vec Ideal S1x64 .f32 := iblk m c 4 t

/-- The feature block is the whole feature array. -/
theorem blk0_eq (c : Dev nD) (t : Fin cfg0.N) : blk0 m c t = aX m c := by
  obtain ⟨e0, e1, e2, -⟩ := idx_facts t
  funext y
  show iblk m c 0 t y = _
  unfold iblk
  rw [View.read_apply]
  show V m c main_arg0 _ = m ((c : Thread nD τ).loc main_arg0) y
  unfold V
  congr 1
  funext a
  apply Fin.ext
  match a with
  | ⟨0, _⟩ => show win0_0.index t (0 : Fin 3) * 2 + 1 * (y 0).val = (y 0).val; rw [e0]; omega
  | ⟨1, _⟩ => show win0_0.index t (1 : Fin 3) * 4096 + 1 * (y 1).val = (y 1).val; rw [e1]; omega
  | ⟨2, _⟩ => show win0_0.index t (2 : Fin 3) * 64 + 1 * (y 2).val = (y 2).val; rw [e2]; omega

/-- The weights' block is the whole weight array. -/
theorem blk3_eq (c : Dev nD) (t : Fin cfg0.N) : blk3 m c t = aW m c := by
  obtain ⟨-, -, -, -, -, -, -, -, -, e0, e1, e2, -⟩ := idx_facts t
  funext y
  show iblk m c 3 t y = _
  unfold iblk
  rw [View.read_apply]
  show V m c main_arg3 _ = m ((c : Thread nD τ).loc main_arg3) y
  unfold V
  congr 1
  funext a
  apply Fin.ext
  match a with
  | ⟨0, _⟩ => show win0_3.index t (0 : Fin 3) * 3 + 1 * (y 0).val = (y 0).val; rw [e0]; omega
  | ⟨1, _⟩ => show win0_3.index t (1 : Fin 3) * 64 + 1 * (y 1).val = (y 1).val; rw [e1]; omega
  | ⟨2, _⟩ => show win0_3.index t (2 : Fin 3) * 64 + 1 * (y 2).val = (y 2).val; rw [e2]; omega

/-- The bias block is the whole bias row. -/
theorem blk4_eq (c : Dev nD) (t : Fin cfg0.N) : blk4 m c t = aB m c := by
  obtain ⟨-, -, -, -, -, -, -, -, -, -, -, -, e0, e1, -⟩ := idx_facts t
  funext y
  show iblk m c 4 t y = _
  unfold iblk
  rw [View.read_apply]
  show V m c main_arg4 _ = m ((c : Thread nD τ).loc main_arg4) y
  unfold V
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

/-- Row p of the real Laplacians' block at point t is row 128 t + p of the array. -/
theorem blk1_apply (c : Dev nD) (t : Fin cfg0.N) (i : Fin 3) (p : Fin 128) (j : Fin 4096) :
    blk1 m c t (ix3 i p j) = aLr m c (ix3 i (⟨128 * t.val + p.val, by have := t_lt t; have := p.isLt; omega⟩ : Fin 4096) j) := by
  obtain ⟨-, -, -, e0, e1, e2, -⟩ := idx_facts t
  show iblk m c 1 t (ix3 i p j) = _
  unfold iblk
  rw [View.read_apply]
  show V m c main_arg1 _ = m ((c : Thread nD τ).loc main_arg1) _
  unfold V
  congr 1
  funext a
  apply Fin.ext
  match a with
  | ⟨0, _⟩ => show win0_1.index t (0 : Fin 3) * 3 + 1 * i.val = i.val; rw [e0]; omega
  | ⟨1, _⟩ => show win0_1.index t (1 : Fin 3) * 128 + 1 * p.val = 128 * t.val + p.val; rw [e1]; omega
  | ⟨2, _⟩ => show win0_1.index t (2 : Fin 3) * 4096 + 1 * j.val = j.val; rw [e2]; omega

/-- The same for the imaginary Laplacians. -/
theorem blk2_apply (c : Dev nD) (t : Fin cfg0.N) (i : Fin 3) (p : Fin 128) (j : Fin 4096) :
    blk2 m c t (ix3 i p j) = aLi m c (ix3 i (⟨128 * t.val + p.val, by have := t_lt t; have := p.isLt; omega⟩ : Fin 4096) j) := by
  obtain ⟨-, -, -, -, -, -, e0, e1, e2, -⟩ := idx_facts t
  show iblk m c 2 t (ix3 i p j) = _
  unfold iblk
  rw [View.read_apply]
  show V m c main_arg2 _ = m ((c : Thread nD τ).loc main_arg2) _
  unfold V
  congr 1
  funext a
  apply Fin.ext
  match a with
  | ⟨0, _⟩ => show win0_2.index t (0 : Fin 3) * 3 + 1 * i.val = i.val; rw [e0]; omega
  | ⟨1, _⟩ => show win0_2.index t (1 : Fin 3) * 128 + 1 * p.val = 128 * t.val + p.val; rw [e1]; omega
  | ⟨2, _⟩ => show win0_2.index t (2 : Fin 3) * 4096 + 1 * j.val = j.val; rw [e2]; omega

/-! ## What point t leaves, entry by entry -/

/-- What the output's staging buffer holds after point t is the block function of the point's input blocks. -/
theorem outsAt_eq (c : Dev nD) (t : Fin cfg0.N) :
    outsAt0 m c t = blockOf (F := Ideal) (blk0 m c t) (blk1 m c t) (blk2 m c t) (blk3 m c t) (blk4 m c t) := by
  unfold outsAt0
  exact out_eq (F := Ideal) c (grid0.coords t) (ms0_0 t) (hs0_0 t) (ms0_1 t) (hs0_1 t) (ms0_2 t) (hs0_2 t) (ms0_3 t) (hs0_3 t)
    (ms0_4 t) (hs0_4 t) (ms0_5 t) (hs0_5 t) (hcond0_0 t) (hcond0_1 t) (hcond0_2 t) (iblk m c 0 t) (iblk m c 1 t) (iblk m c 2 t)
    (iblk m c 3 t) (iblk m c 4 t)

/-- Its left half is the real part at rows 128 t + p. -/
theorem outsAt_left (c : Dev nD) (t : Fin cfg0.N) (p : Fin 128) (q : Fin 64) :
    outsAt0 m c t (ix2 p (⟨q.val, by have := q.isLt; omega⟩ : Fin 128))
      = weightFirstRe (R := 4096) (aX m c) (aLr m c) (aLi m c) (aW m c) (aB m c)
          (⟨128 * t.val + p.val, by have := t_lt t; have := p.isLt; omega⟩ : Fin 4096) q := by
  refine (congrFun (outsAt_eq m c t) _).trans ?_
  refine (blockOf_re (blk0 m c t) (blk1 m c t) (blk2 m c t) (blk3 m c t) (blk4 m c t) p q).trans ?_
  rw [blk0_eq, blk3_eq, blk4_eq]
  exact weightFirstRe_rows (R := 4096) (aX m c) (aLr m c) (aLi m c) (aW m c) (aB m c) (blk1 m c t) (blk2 m c t) (128 * t.val)
    (by have := t_lt t; omega) (fun i p j => blk1_apply m c t i p j) (fun i p j => blk2_apply m c t i p j) p q

/-- Its right half is the imaginary part at rows 128 t + p. -/
theorem outsAt_right (c : Dev nD) (t : Fin cfg0.N) (p : Fin 128) (q : Fin 64) :
    outsAt0 m c t (ix2 p (⟨64 + q.val, by have := q.isLt; omega⟩ : Fin 128))
      = weightFirstIm (R := 4096) (aX m c) (aLr m c) (aLi m c) (aW m c) (aB m c)
          (⟨128 * t.val + p.val, by have := t_lt t; have := p.isLt; omega⟩ : Fin 4096) q := by
  refine (congrFun (outsAt_eq m c t) _).trans ?_
  refine (blockOf_im (blk0 m c t) (blk1 m c t) (blk2 m c t) (blk3 m c t) (blk4 m c t) p q).trans ?_
  rw [blk0_eq, blk3_eq, blk4_eq]
  exact weightFirstIm_rows (R := 4096) (aX m c) (aLr m c) (aLi m c) (aW m c) (aB m c) (blk1 m c t) (blk2 m c t) (128 * t.val)
    (by have := t_lt t; omega) (fun i p j => blk1_apply m c t i p j) (fun i p j => blk2_apply m c t i p j) p q

/-! ## The result array after the run -/

theorem right_lt (q' : Fin 64) : 64 + q'.val < 128 := by have := q'.isLt; omega

/-- WHAT POINT t WRITES BACK is block t of the packed array: rows 128 t … 128 t + 127, all 128 columns. -/
theorem flushed_eq (c : Dev nD) (t : Fin cfg0.N) :
    (dats m 0 c).flushed 5 t = ((cfg0.win 5).blk t).view.read (Elt Ideal) (packed m c) := by
  obtain ⟨-, -, -, -, -, -, -, -, -, -, -, -, -, -, e0, e1⟩ := idx_facts t
  show (cfg0.win 5).cut (grid0.coords t) ((dats m 0 c).after 5 t) = _
  rw [after0_5]
  refine funext fun (y : S128x128.Idx) => ?_
  show outsAt0 m c t y = packed m c (((cfg0.win 5).blk t).view.emb y)
  have he : ∀ (p q : Fin 128), ((cfg0.win 5).blk t).view.emb (ix2 p q : S128x128.Idx)
      = (ix2 (⟨128 * t.val + p.val, by have := t_lt t; have := p.isLt; omega⟩ : Fin 4096) q : S4096x128.Idx) :=
    fun p q => funext fun a => Fin.ext (by
      match a with
      | ⟨0, _⟩ => show win0_5.index t (0 : Fin 2) * 128 + 1 * p.val = 128 * t.val + p.val; rw [e0]; omega
      | ⟨1, _⟩ => show win0_5.index t (1 : Fin 2) * 128 + 1 * q.val = q.val; rw [e1]; omega)
  obtain ⟨p, q, rfl⟩ : ∃ (p q : Fin 128), y = ix2 p q := ⟨y 0, y 1, eq_ix2 y⟩
  by_cases hq : q.val < 64
  · rw [he]
    exact (outsAt_left m c t p ⟨q.val, hq⟩).trans (packed_left m c _ ⟨q.val, hq⟩).symm
  · obtain ⟨q', rfl⟩ : ∃ q' : Fin 64, q = (⟨64 + q'.val, right_lt q'⟩ : Fin 128) :=
      ⟨⟨q.val - 64, by have := q.isLt; omega⟩, Fin.ext (by show q.val = 64 + (q.val - 64); omega)⟩
    rw [he]
    exact (outsAt_right m c t p q').trans (packed_right m c _ q').symm

/-- An index of the packed array is in point t's block iff each coordinate is in the block's range on its axis. -/
theorem mem_blk (t : Fin cfg0.N) (i : S4096x128.Idx) :
    i ∈ ((cfg0.win 5).blk t).view.set ↔ ∀ a : Fin 2, win0_5.index t a * S128x128.size a ≤ (i a).val
      ∧ (i a).val < win0_5.index t a * S128x128.size a + S128x128.size a := by
  show i ∈ ((View.whole main_call0_v0).slice (win0_5.rect t)).set ↔ _
  rw [View.set_slice_whole, Rect.mem_set_unit]
  exact Iff.rfl

/-- The 32 row blocks cover the array (row r is in block r / 128), so it ends holding the packed array. -/
theorem final (c : Dev nD) : (dats m 0 c).arrAt 5 cfg0.N = packed m c :=
  (dats m 0 c).arrAt_eq_of_cover 5 (packed m c) (fun t _ => flushed_eq m c t) fun i => by
    have hN : cfg0.N = 32 := N_0
    have h0 : (i 0).val < 4096 := (i 0).isLt
    have h1 : (i 1).val < 128 := (i 1).isLt
    obtain ⟨t, ht⟩ : ∃ t : Fin cfg0.N, t.val = (i 0).val / 128 := ⟨⟨(i 0).val / 128, by rw [hN]; omega⟩, rfl⟩
    obtain ⟨-, -, -, -, -, -, -, -, -, -, -, -, -, -, e0, e1⟩ := idx_facts t
    refine ⟨t, flush0_5 t, ?_⟩
    rw [mem_blk]
    intro a
    match a with
    | ⟨0, _⟩ => show win0_5.index t (0 : Fin 2) * 128 ≤ (i 0).val ∧ (i 0).val < win0_5.index t (0 : Fin 2) * 128 + 128
                rw [e0, ht]; omega
    | ⟨1, _⟩ => show win0_5.index t (1 : Fin 2) * 128 ≤ (i 1).val ∧ (i 1).val < win0_5.index t (1 : Fin 2) * 128 + 128
                rw [e1]; omega

/-! ## The two slices after the region, and the run -/

/-- When the lines after the region start, the kernel's result buffer holds the packed array. -/
theorem arr5 (c : Dev nD) :
    Pipeline.withArrays spec0 c (V0 m c) (fun w => (dats m 0 c).arrAt w cfg0.N) (Proc.devRef .tc main_call0_v0) = packed m c :=
  (Pipeline.withArrays_arr spec0 launch0.win.arr_inj c _ _ 5).trans (final m c)

/-- The slice of columns 0 … 63 is the real part. -/
theorem tail_re (c : Dev nD) : Pipeline.afterTail₀ cfgs (dats m) 0 (V0 m) [hostOps1] c main_v0_0 = outRe m c := by
  unfold Pipeline.afterTail₀
  show StableHlo.after hostOps1 _ (Proc.devRef .tc main_v0_0) = _
  after_results
  show extractStridedSlice S4096x64 ![0, 0] (Pipeline.withArrays spec0 c (V0 m c) (fun w => (dats m 0 c).arrAt w cfg0.N)
    (Proc.devRef .tc main_call0_v0)) slices_S4096x128_S4096x64_0_0 = outRe m c
  rw [arr5]
  funext j
  obtain ⟨r, q, rfl⟩ : ∃ (r : Fin 4096) (q : Fin 64), j = ix2 r q := ⟨j 0, j 1, eq_ix2 j⟩
  refine (extractStridedSlice_apply ![0, 0] (packed m c) slices_S4096x128_S4096x64_0_0 (ix2 r q)
    (ix2 r (⟨q.val, by have := q.isLt; omega⟩ : Fin 128)) (fun a => match a with
      | ⟨0, _⟩ => by show r.val = 0 + r.val; omega
      | ⟨1, _⟩ => by show q.val = 0 + q.val; omega)).trans ?_
  exact packed_left m c r q

/-- The slice of columns 64 … 127 is the imaginary part. -/
theorem tail_im (c : Dev nD) : Pipeline.afterTail₀ cfgs (dats m) 0 (V0 m) [hostOps1] c main_v0_1 = outIm m c := by
  unfold Pipeline.afterTail₀
  show StableHlo.after hostOps1 _ (Proc.devRef .tc main_v0_1) = _
  after_results
  show extractStridedSlice S4096x64 ![0, 64] (Pipeline.withArrays spec0 c (V0 m c) (fun w => (dats m 0 c).arrAt w cfg0.N)
    (Proc.devRef .tc main_call0_v0)) slices_S4096x128_S4096x64_0_64 = outIm m c
  rw [arr5]
  funext j
  obtain ⟨r, q, rfl⟩ : ∃ (r : Fin 4096) (q : Fin 64), j = ix2 r q := ⟨j 0, j 1, eq_ix2 j⟩
  refine (extractStridedSlice_apply ![0, 64] (packed m c) slices_S4096x128_S4096x64_0_64 (ix2 r q)
    (ix2 r (⟨64 + q.val, by have := q.isLt; omega⟩ : Fin 128)) (fun a => match a with
      | ⟨0, _⟩ => by show r.val = 0 + r.val; omega
      | ⟨1, _⟩ => by show 64 + q.val = 64 + q.val; omega)).trans ?_
  exact packed_right m c r q

/-- THE RUN, READ: every weakly fair execution of the program ends with the two results at the real and the
    imaginary part of the weight-first convolution of the argument arrays, and the arguments unchanged. -/
theorem run : θ_run defs (onTc (τ := τ) (main (F := Ideal))) ⟨m, fun _ => 0, ρ⟩ fun r => ∀ c : Dev nD,
      r.2.mem ((c.tc : Thread nD τ).loc main_v0_0) = outRe m c
      ∧ r.2.mem ((c.tc : Thread nD τ).loc main_v0_1) = outIm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v0_0 (by decide)).trans (tail_re m c),
      ((h c).2 main_v0_1 (by decide)).trans (tail_im m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Hand

end
-- ==== Proof.RefValue.lean ====
/-
  The reference program read at an index. Its two results are, entry by entry, the Laplacian-first form of the
  convolution (ChebSpec.laplacianFirstRe / laplacianFirstIm) of its five argument arrays: each slice and reshape picks
  one Laplacian, one feature part or one weight; each dot_general is a sum over the contracted coordinate; the stack
  and the sum over its leading axis add the three terms to zero; the bias row is broadcast over the rows.
-/
import proofs.«128162_g38809324486706_cont_8to1_b_1300_7_alg».proof.Defs
import proofs.«128162_g38809324486706_cont_8to1_b_1300_7_alg».proof.Proof.Gen.ReferenceIdeal.Run
import proofs.«128162_g38809324486706_cont_8to1_b_1300_7_alg».proof.Proof.Gen.ReferenceIdeal.Read
import proofs.«128162_g38809324486706_cont_8to1_b_1300_7_alg».proof.Proof.Spec

noncomputable section

namespace Cert.RefValue

open Idealize.ShloMosaic Idealize.ShloMosaic.TcCoe Idealize.ShloMosaic.ValueIdx Idealize.SL.Sem
open Cert.ReferenceIdeal ChebSpec
open Cert.ReferenceIdeal.Gen Cert.ReferenceIdeal.Read
open scoped BigOperators

variable (m : (ℓ : Loc nD τ sig) → Buf (Elt Ideal) ℓ)

/-! ## An index is its coordinates

An index into an array of literal extents equals the index built from literal coordinates as soon as the coordinates'
values agree; every index equation below is an instance. -/

theorem idx_ext2 {n0 n1 : Nat} (f : (⟨2, ![n0, n1]⟩ : Shape).Idx) (a : Fin n0) (b : Fin n1)
    (h0 : (f 0).val = a.val) (h1 : (f 1).val = b.val) : f = ix2 a b := by
  funext d; match d with
  | ⟨0, _⟩ => exact Fin.ext h0
  | ⟨1, _⟩ => exact Fin.ext h1

theorem idx_ext3 {n0 n1 n2 : Nat} (f : (⟨3, ![n0, n1, n2]⟩ : Shape).Idx) (a : Fin n0) (b : Fin n1) (c : Fin n2)
    (h0 : (f 0).val = a.val) (h1 : (f 1).val = b.val) (h2 : (f 2).val = c.val) : f = ix3 a b c := by
  funext d; match d with
  | ⟨0, _⟩ => exact Fin.ext h0
  | ⟨1, _⟩ => exact Fin.ext h1
  | ⟨2, _⟩ => exact Fin.ext h2

theorem idx_ext4 {n0 n1 n2 n3 : Nat} (f : (⟨4, ![n0, n1, n2, n3]⟩ : Shape).Idx) (a : Fin n0) (b : Fin n1) (c : Fin n2)
    (d : Fin n3) (h0 : (f 0).val = a.val) (h1 : (f 1).val = b.val) (h2 : (f 2).val = c.val) (h3 : (f 3).val = d.val) :
    f = ix4 a b c d := by
  funext e; match e with
  | ⟨0, _⟩ => exact Fin.ext h0
  | ⟨1, _⟩ => exact Fin.ext h1
  | ⟨2, _⟩ => exact Fin.ext h2
  | ⟨3, _⟩ => exact Fin.ext h3

/-! ## Arrays joined along the leading axis, at an index

Two arrays of one leading row each: row 0 of the join is the first array, row 1 the second. Three arrays of one
leading slab each: slab `k` of the join is the `k`-th array. -/

theorem cat2_left {α : Type} (h : Shape.Concatenates [S1x4096x64, S1x4096x64] S2x4096x64 0) (a b : S1x4096x64.Idx → α)
    (r : Fin 4096) (q : Fin 64) :
    concatenate S2x4096x64 0 [⟨S1x4096x64, a⟩, ⟨S1x4096x64, b⟩] h (ix3 (0 : Fin 2) r q) = a (ix3 (0 : Fin 1) r q) :=
  concatenate_pair_apply_left 0 a b h (ix3 (0 : Fin 2) r q) rfl (ix3 (0 : Fin 1) r q)
    (fun d => by match d with | ⟨0, _⟩ => rfl | ⟨1, _⟩ => rfl | ⟨2, _⟩ => rfl)

theorem cat2_right {α : Type} (h : Shape.Concatenates [S1x4096x64, S1x4096x64] S2x4096x64 0) (a b : S1x4096x64.Idx → α)
    (r : Fin 4096) (q : Fin 64) :
    concatenate S2x4096x64 0 [⟨S1x4096x64, a⟩, ⟨S1x4096x64, b⟩] h (ix3 (1 : Fin 2) r q) = b (ix3 (0 : Fin 1) r q) :=
  concatenate_pair_apply_right 0 a b h (ix3 (1 : Fin 2) r q) rfl rfl (ix3 (0 : Fin 1) r q)
    (fun d hd => by match d with | ⟨0, _⟩ => exact absurd rfl hd | ⟨1, _⟩ => rfl | ⟨2, _⟩ => rfl) rfl

theorem cat3_0 {α : Type} (h : Shape.Concatenates [S1x2x4096x64, S1x2x4096x64, S1x2x4096x64] S3x2x4096x64 0)
    (u0 u1 u2 : S1x2x4096x64.Idx → α) (s : Fin 2) (r : Fin 4096) (q : Fin 64) :
    concatenate S3x2x4096x64 0 [⟨S1x2x4096x64, u0⟩, ⟨S1x2x4096x64, u1⟩, ⟨S1x2x4096x64, u2⟩] h (ix4 (0 : Fin 3) s r q)
      = u0 (ix4 (0 : Fin 1) s r q) :=
  concatenate_apply_piece 0 [⟨S1x2x4096x64, u0⟩, ⟨S1x2x4096x64, u1⟩, ⟨S1x2x4096x64, u2⟩] h (ix4 (0 : Fin 3) s r q) 0
    (by simp) S1x2x4096x64 u0 rfl rfl 0 rfl (ix4 (0 : Fin 1) s r q)
    (fun d hd => by match d with | ⟨0, _⟩ => exact absurd rfl hd | ⟨1, _⟩ => rfl | ⟨2, _⟩ => rfl | ⟨3, _⟩ => rfl) rfl

theorem cat3_1 {α : Type} (h : Shape.Concatenates [S1x2x4096x64, S1x2x4096x64, S1x2x4096x64] S3x2x4096x64 0)
    (u0 u1 u2 : S1x2x4096x64.Idx → α) (s : Fin 2) (r : Fin 4096) (q : Fin 64) :
    concatenate S3x2x4096x64 0 [⟨S1x2x4096x64, u0⟩, ⟨S1x2x4096x64, u1⟩, ⟨S1x2x4096x64, u2⟩] h (ix4 (1 : Fin 3) s r q)
      = u1 (ix4 (0 : Fin 1) s r q) :=
  concatenate_apply_piece 0 [⟨S1x2x4096x64, u0⟩, ⟨S1x2x4096x64, u1⟩, ⟨S1x2x4096x64, u2⟩] h (ix4 (1 : Fin 3) s r q) 1
    (by simp) S1x2x4096x64 u1 rfl rfl 1 rfl (ix4 (0 : Fin 1) s r q)
    (fun d hd => by match d with | ⟨0, _⟩ => exact absurd rfl hd | ⟨1, _⟩ => rfl | ⟨2, _⟩ => rfl | ⟨3, _⟩ => rfl) rfl

theorem cat3_2 {α : Type} (h : Shape.Concatenates [S1x2x4096x64, S1x2x4096x64, S1x2x4096x64] S3x2x4096x64 0)
    (u0 u1 u2 : S1x2x4096x64.Idx → α) (s : Fin 2) (r : Fin 4096) (q : Fin 64) :
    concatenate S3x2x4096x64 0 [⟨S1x2x4096x64, u0⟩, ⟨S1x2x4096x64, u1⟩, ⟨S1x2x4096x64, u2⟩] h (ix4 (2 : Fin 3) s r q)
      = u2 (ix4 (0 : Fin 1) s r q) :=
  concatenate_apply_piece 0 [⟨S1x2x4096x64, u0⟩, ⟨S1x2x4096x64, u1⟩, ⟨S1x2x4096x64, u2⟩] h (ix4 (2 : Fin 3) s r q) 2
    (by simp) S1x2x4096x64 u2 rfl rfl 2 rfl (ix4 (0 : Fin 1) s r q)
    (fun d hd => by match d with | ⟨0, _⟩ => exact absurd rfl hd | ⟨1, _⟩ => rfl | ⟨2, _⟩ => rfl | ⟨3, _⟩ => rfl) rfl

section Stages

variable (x0 : (⟨S2x4096x64, .f32⟩ : BufTy).Contents (Elt Ideal))
variable (L Lr Li : (⟨S3x4096x4096, .f32⟩ : BufTy).Contents (Elt Ideal))
variable (x3 : (⟨S3x64x64, .f32⟩ : BufTy).Contents (Elt Ideal))
variable (x4 : (⟨S1x64, .f32⟩ : BufTy).Contents (Elt Ideal))

/-! ## The two feature parts

A slice [s : s+1] of the features followed by the reshape that drops the unit axis is part `s`: the reshape sends
(j, k) to position j·64 + k, which is row j, column k of the one slab. -/

theorem v1_at (j : Fin 4096) (k : Fin 64) : val_main_v1 (F := Ideal) x0 (ix2 j k) = x0 (ix3 (0 : Fin 2) j k) := by
  rw [val_main_v1_apply, val_main_v0_apply]
  exact congrArg x0 (idx_ext3 _ _ _ _ rfl
    (by have := j.isLt; have := k.isLt; show (j.val * 64 + k.val) / 64 % 4096 = j.val; omega)
    (by have := j.isLt; have := k.isLt; show (j.val * 64 + k.val) % 64 = k.val; omega))

theorem v3_at (j : Fin 4096) (k : Fin 64) : val_main_v3 (F := Ideal) x0 (ix2 j k) = x0 (ix3 (1 : Fin 2) j k) := by
  rw [val_main_v3_apply, val_main_v2_apply]
  exact congrArg x0 (idx_ext3 _ _ _ _ rfl
    (by have := j.isLt; have := k.isLt; show (j.val * 64 + k.val) / 64 % 4096 = j.val; omega)
    (by have := j.isLt; have := k.isLt; show (j.val * 64 + k.val) % 64 = k.val; omega))

/-! ## Term 0

Laplacian 0 and weight 0 are the slices [0:1]; the products are sums over the contracted coordinate. The same slice of
either Laplacian array is one function of the array, so one lemma serves the real and the imaginary Laplacian. -/

theorem v5_at (r j : Fin 4096) : val_main_v5 (F := Ideal) L (ix2 r j) = L (ix3 (0 : Fin 3) r j) := by
  rw [val_main_v5_apply, val_main_v4_apply]
  exact congrArg L (idx_ext3 _ _ _ _ rfl
    (by have := r.isLt; have := j.isLt; show (r.val * 4096 + j.val) / 4096 % 4096 = r.val; omega)
    (by have := r.isLt; have := j.isLt; show (r.val * 4096 + j.val) % 4096 = j.val; omega))

theorem v11_at (r j : Fin 4096) : val_main_v11 (F := Ideal) L (ix2 r j) = L (ix3 (0 : Fin 3) r j) := v5_at L r j

theorem v8_at (k q : Fin 64) : val_main_v8 (F := Ideal) x3 (ix2 k q) = x3 (ix3 (0 : Fin 3) k q) := by
  rw [val_main_v8_apply, val_main_v7_apply]
  exact congrArg x3 (idx_ext3 _ _ _ _ rfl
    (by have := k.isLt; have := q.isLt; show (k.val * 64 + q.val) / 64 % 64 = k.val; omega)
    (by have := k.isLt; have := q.isLt; show (k.val * 64 + q.val) % 64 = q.val; omega))

theorem v16_at (k q : Fin 64) : val_main_v16 (F := Ideal) x3 (ix2 k q) = x3 (ix3 (0 : Fin 3) k q) := v8_at x3 k q

theorem v29_at (k q : Fin 64) : val_main_v29 (F := Ideal) x3 (ix2 k q) = x3 (ix3 (0 : Fin 3) k q) := v8_at x3 k q

/-- Laplacian 0 times the real part. -/
theorem v6_at (r : Fin 4096) (k : Fin 64) :
    val_main_v6 (F := Ideal) x0 L (ix2 r k) = lx x0 L (0 : Fin 3) (0 : Fin 2) r k := by
  rw [val_main_v6_apply, lx]
  refine Finset.sum_congr rfl fun j _ => ?_
  rw [show lidx_main_v6 (ix2 r k) j = ix2 r j from idx_ext2 _ _ _ rfl rfl,
    show ridx_main_v6 (ix2 r k) j = ix2 j k from idx_ext2 _ _ _ rfl rfl, v5_at, v1_at]

/-- Laplacian 0 times the imaginary part. -/
theorem v12_at (r : Fin 4096) (k : Fin 64) :
    val_main_v12 (F := Ideal) x0 L (ix2 r k) = lx x0 L (0 : Fin 3) (1 : Fin 2) r k := by
  rw [val_main_v12_apply, lx]
  refine Finset.sum_congr rfl fun j _ => ?_
  rw [show lidx_main_v12 (ix2 r k) j = ix2 r j from idx_ext2 _ _ _ rfl rfl,
    show ridx_main_v12 (ix2 r k) j = ix2 j k from idx_ext2 _ _ _ rfl rfl, v11_at, v3_at]

theorem v27_at (r : Fin 4096) (k : Fin 64) :
    val_main_v27 (F := Ideal) x0 L (ix2 r k) = lx x0 L (0 : Fin 3) (1 : Fin 2) r k := v12_at x0 L r k

/-- (Laplacian 0 · real part) · weight 0. -/
theorem v9_at (r : Fin 4096) (q : Fin 64) :
    val_main_v9 (F := Ideal) x0 L x3 (ix2 r q)
      = ∑ k : Fin 64, lx x0 L (0 : Fin 3) (0 : Fin 2) r k * x3 (ix3 (0 : Fin 3) k q) := by
  rw [val_main_v9_apply]
  refine Finset.sum_congr rfl fun k _ => ?_
  rw [show lidx_main_v9 (ix2 r q) k = ix2 r k from idx_ext2 _ _ _ rfl rfl,
    show ridx_main_v9 (ix2 r q) k = ix2 k q from idx_ext2 _ _ _ rfl rfl, v6_at, v8_at]

theorem v24_at (r : Fin 4096) (q : Fin 64) :
    val_main_v24 (F := Ideal) x0 L x3 (ix2 r q)
      = ∑ k : Fin 64, lx x0 L (0 : Fin 3) (0 : Fin 2) r k * x3 (ix3 (0 : Fin 3) k q) := v9_at x0 L x3 r q

/-- (Laplacian 0 · imaginary part) · weight 0. -/
theorem v30_at (r : Fin 4096) (q : Fin 64) :
    val_main_v30 (F := Ideal) x0 L x3 (ix2 r q)
      = ∑ k : Fin 64, lx x0 L (0 : Fin 3) (1 : Fin 2) r k * x3 (ix3 (0 : Fin 3) k q) := by
  rw [val_main_v30_apply]
  refine Finset.sum_congr rfl fun k _ => ?_
  rw [show lidx_main_v30 (ix2 r q) k = ix2 r k from idx_ext2 _ _ _ rfl rfl,
    show ridx_main_v30 (ix2 r q) k = ix2 k q from idx_ext2 _ _ _ rfl rfl, v27_at, v29_at]

/-- (−1 · (Laplacian 0 · imaginary part)) · weight 0: the broadcast literal is the real −1. -/
theorem v17_at (r : Fin 4096) (q : Fin 64) :
    val_main_v17 (F := Ideal) x0 L x3 (ix2 r q)
      = ∑ k : Fin 64, (((-1 : ℝ) : EReal) * lx x0 L (0 : Fin 3) (1 : Fin 2) r k) * x3 (ix3 (0 : Fin 3) k q) := by
  rw [val_main_v17_apply]
  refine Finset.sum_congr rfl fun k _ => ?_
  rw [show lidx_main_v17 (ix2 r q) k = ix2 r k from idx_ext2 _ _ _ rfl rfl,
    show ridx_main_v17 (ix2 r q) k = ix2 k q from idx_ext2 _ _ _ rfl rfl, val_main_v14_apply, val_main_v13_apply,
    val_main_cst_apply, Ideal.mulf_def, Ideal.ofBits_def, ofBits_neg_one, v12_at, v16_at]

/-- The real term 0. -/
theorem v18_at (r : Fin 4096) (q : Fin 64) :
    val_main_v18 (F := Ideal) x0 Lr Li x3 (ix2 r q) = lfRe x0 Lr Li x3 (0 : Fin 3) r q := by
  rw [val_main_v18_apply, Ideal.addf_def, v9_at, v17_at, lfRe]

/-- The imaginary term 0. -/
theorem v31_at (r : Fin 4096) (q : Fin 64) :
    val_main_v31 (F := Ideal) x0 Lr Li x3 (ix2 r q) = lfIm x0 Lr Li x3 (0 : Fin 3) r q := by
  rw [val_main_v31_apply, Ideal.addf_def, v24_at, v30_at, lfIm]

/-- The stacked pair of term 0: part 0 is the real term, part 1 the imaginary one. -/
theorem v34_at0 (r : Fin 4096) (q : Fin 64) :
    val_main_v34 (F := Ideal) x0 Lr Li x3 (ix3 (0 : Fin 2) r q) = lfRe x0 Lr Li x3 (0 : Fin 3) r q := by
  unfold val_main_v34
  rw [cat2_left, val_main_v32_apply, show idx_main_v32 (ix3 (0 : Fin 1) r q) = ix2 r q from idx_ext2 _ _ _ rfl rfl,
    v18_at]

theorem v34_at1 (r : Fin 4096) (q : Fin 64) :
    val_main_v34 (F := Ideal) x0 Lr Li x3 (ix3 (1 : Fin 2) r q) = lfIm x0 Lr Li x3 (0 : Fin 3) r q := by
  unfold val_main_v34
  rw [cat2_right, val_main_v33_apply, show idx_main_v33 (ix3 (0 : Fin 1) r q) = ix2 r q from idx_ext2 _ _ _ rfl rfl,
    v31_at]

/-! ## Term 1

As term 0, with the slices [1:2] of the Laplacians and the weights. -/

theorem v36_at (r j : Fin 4096) : val_main_v36 (F := Ideal) L (ix2 r j) = L (ix3 (1 : Fin 3) r j) := by
  rw [val_main_v36_apply, val_main_v35_apply]
  exact congrArg L (idx_ext3 _ _ _ _ rfl
    (by have := r.isLt; have := j.isLt; show (r.val * 4096 + j.val) / 4096 % 4096 = r.val; omega)
    (by have := r.isLt; have := j.isLt; show (r.val * 4096 + j.val) % 4096 = j.val; omega))

theorem v42_at (r j : Fin 4096) : val_main_v42 (F := Ideal) L (ix2 r j) = L (ix3 (1 : Fin 3) r j) := v36_at L r j

theorem v39_at (k q : Fin 64) : val_main_v39 (F := Ideal) x3 (ix2 k q) = x3 (ix3 (1 : Fin 3) k q) := by
  rw [val_main_v39_apply, val_main_v38_apply]
  exact congrArg x3 (idx_ext3 _ _ _ _ rfl
    (by have := k.isLt; have := q.isLt; show (k.val * 64 + q.val) / 64 % 64 = k.val; omega)
    (by have := k.isLt; have := q.isLt; show (k.val * 64 + q.val) % 64 = q.val; omega))

theorem v47_at (k q : Fin 64) : val_main_v47 (F := Ideal) x3 (ix2 k q) = x3 (ix3 (1 : Fin 3) k q) := v39_at x3 k q

theorem v60_at (k q : Fin 64) : val_main_v60 (F := Ideal) x3 (ix2 k q) = x3 (ix3 (1 : Fin 3) k q) := v39_at x3 k q

/-- Laplacian 1 times the real part. -/
theorem v37_at (r : Fin 4096) (k : Fin 64) :
    val_main_v37 (F := Ideal) x0 L (ix2 r k) = lx x0 L (1 : Fin 3) (0 : Fin 2) r k := by
  rw [val_main_v37_apply, lx]
  refine Finset.sum_congr rfl fun j _ => ?_
  rw [show lidx_main_v37 (ix2 r k) j = ix2 r j from idx_ext2 _ _ _ rfl rfl,
    show ridx_main_v37 (ix2 r k) j = ix2 j k from idx_ext2 _ _ _ rfl rfl, v36_at, v1_at]

/-- Laplacian 1 times the imaginary part. -/
theorem v43_at (r : Fin 4096) (k : Fin 64) :
    val_main_v43 (F := Ideal) x0 L (ix2 r k) = lx x0 L (1 : Fin 3) (1 : Fin 2) r k := by
  rw [val_main_v43_apply, lx]
  refine Finset.sum_congr rfl fun j _ => ?_
  rw [show lidx_main_v43 (ix2 r k) j = ix2 r j from idx_ext2 _ _ _ rfl rfl,
    show ridx_main_v43 (ix2 r k) j = ix2 j k from idx_ext2 _ _ _ rfl rfl, v42_at, v3_at]

theorem v58_at (r : Fin 4096) (k : Fin 64) :
    val_main_v58 (F := Ideal) x0 L (ix2 r k) = lx x0 L (1 : Fin 3) (1 : Fin 2) r k := v43_at x0 L r k

/-- (Laplacian 1 · real part) · weight 1. -/
theorem v40_at (r : Fin 4096) (q : Fin 64) :
    val_main_v40 (F := Ideal) x0 L x3 (ix2 r q)
      = ∑ k : Fin 64, lx x0 L (1 : Fin 3) (0 : Fin 2) r k * x3 (ix3 (1 : Fin 3) k q) := by
  rw [val_main_v40_apply]
  refine Finset.sum_congr rfl fun k _ => ?_
  rw [show lidx_main_v40 (ix2 r q) k = ix2 r k from idx_ext2 _ _ _ rfl rfl,
    show ridx_main_v40 (ix2 r q) k = ix2 k q from idx_ext2 _ _ _ rfl rfl, v37_at, v39_at]

theorem v55_at (r : Fin 4096) (q : Fin 64) :
    val_main_v55 (F := Ideal) x0 L x3 (ix2 r q)
      = ∑ k : Fin 64, lx x0 L (1 : Fin 3) (0 : Fin 2) r k * x3 (ix3 (1 : Fin 3) k q) := v40_at x0 L x3 r q

/-- (Laplacian 1 · imaginary part) · weight 1. -/
theorem v61_at (r : Fin 4096) (q : Fin 64) :
    val_main_v61 (F := Ideal) x0 L x3 (ix2 r q)
      = ∑ k : Fin 64, lx x0 L (1 : Fin 3) (1 : Fin 2) r k * x3 (ix3 (1 : Fin 3) k q) := by
  rw [val_main_v61_apply]
  refine Finset.sum_congr rfl fun k _ => ?_
  rw [show lidx_main_v61 (ix2 r q) k = ix2 r k from idx_ext2 _ _ _ rfl rfl,
    show ridx_main_v61 (ix2 r q) k = ix2 k q from idx_ext2 _ _ _ rfl rfl, v58_at, v60_at]

/-- (−1 · (Laplacian 1 · imaginary part)) · weight 1: the broadcast literal is the real −1. -/
theorem v48_at (r : Fin 4096) (q : Fin 64) :
    val_main_v48 (F := Ideal) x0 L x3 (ix2 r q)
      = ∑ k : Fin 64, (((-1 : ℝ) : EReal) * lx x0 L (1 : Fin 3) (1 : Fin 2) r k) * x3 (ix3 (1 : Fin 3) k q) := by
  rw [val_main_v48_apply]
  refine Finset.sum_congr rfl fun k _ => ?_
  rw [show lidx_main_v48 (ix2 r q) k = ix2 r k from idx_ext2 _ _ _ rfl rfl,
    show ridx_main_v48 (ix2 r q) k = ix2 k q from idx_ext2 _ _ _ rfl rfl, val_main_v45_apply, val_main_v44_apply,
    val_main_cst_0_apply, Ideal.mulf_def, Ideal.ofBits_def, ofBits_neg_one, v43_at, v47_at]

/-- The real term 1. -/
theorem v49_at (r : Fin 4096) (q : Fin 64) :
    val_main_v49 (F := Ideal) x0 Lr Li x3 (ix2 r q) = lfRe x0 Lr Li x3 (1 : Fin 3) r q := by
  rw [val_main_v49_apply, Ideal.addf_def, v40_at, v48_at, lfRe]

/-- The imaginary term 1. -/
theorem v62_at (r : Fin 4096) (q : Fin 64) :
    val_main_v62 (F := Ideal) x0 Lr Li x3 (ix2 r q) = lfIm x0 Lr Li x3 (1 : Fin 3) r q := by
  rw [val_main_v62_apply, Ideal.addf_def, v55_at, v61_at, lfIm]

/-- The stacked pair of term 1: part 0 is the real term, part 1 the imaginary one. -/
theorem v65_at0 (r : Fin 4096) (q : Fin 64) :
    val_main_v65 (F := Ideal) x0 Lr Li x3 (ix3 (0 : Fin 2) r q) = lfRe x0 Lr Li x3 (1 : Fin 3) r q := by
  unfold val_main_v65
  rw [cat2_left, val_main_v63_apply, show idx_main_v63 (ix3 (0 : Fin 1) r q) = ix2 r q from idx_ext2 _ _ _ rfl rfl,
    v49_at]

theorem v65_at1 (r : Fin 4096) (q : Fin 64) :
    val_main_v65 (F := Ideal) x0 Lr Li x3 (ix3 (1 : Fin 2) r q) = lfIm x0 Lr Li x3 (1 : Fin 3) r q := by
  unfold val_main_v65
  rw [cat2_right, val_main_v64_apply, show idx_main_v64 (ix3 (0 : Fin 1) r q) = ix2 r q from idx_ext2 _ _ _ rfl rfl,
    v62_at]

/-! ## Term 2

As term 0, with the slices [2:3] of the Laplacians and the weights. -/

theorem v67_at (r j : Fin 4096) : val_main_v67 (F := Ideal) L (ix2 r j) = L (ix3 (2 : Fin 3) r j) := by
  rw [val_main_v67_apply, val_main_v66_apply]
  exact congrArg L (idx_ext3 _ _ _ _ rfl
    (by have := r.isLt; have := j.isLt; show (r.val * 4096 + j.val) / 4096 % 4096 = r.val; omega)
    (by have := r.isLt; have := j.isLt; show (r.val * 4096 + j.val) % 4096 = j.val; omega))

theorem v73_at (r j : Fin 4096) : val_main_v73 (F := Ideal) L (ix2 r j) = L (ix3 (2 : Fin 3) r j) := v67_at L r j

theorem v70_at (k q : Fin 64) : val_main_v70 (F := Ideal) x3 (ix2 k q) = x3 (ix3 (2 : Fin 3) k q) := by
  rw [val_main_v70_apply, val_main_v69_apply]
  exact congrArg x3 (idx_ext3 _ _ _ _ rfl
    (by have := k.isLt; have := q.isLt; show (k.val * 64 + q.val) / 64 % 64 = k.val; omega)
    (by have := k.isLt; have := q.isLt; show (k.val * 64 + q.val) % 64 = q.val; omega))

theorem v78_at (k q : Fin 64) : val_main_v78 (F := Ideal) x3 (ix2 k q) = x3 (ix3 (2 : Fin 3) k q) := v70_at x3 k q

theorem v91_at (k q : Fin 64) : val_main_v91 (F := Ideal) x3 (ix2 k q) = x3 (ix3 (2 : Fin 3) k q) := v70_at x3 k q

/-- Laplacian 2 times the real part. -/
theorem v68_at (r : Fin 4096) (k : Fin 64) :
    val_main_v68 (F := Ideal) x0 L (ix2 r k) = lx x0 L (2 : Fin 3) (0 : Fin 2) r k := by
  rw [val_main_v68_apply, lx]
  refine Finset.sum_congr rfl fun j _ => ?_
  rw [show lidx_main_v68 (ix2 r k) j = ix2 r j from idx_ext2 _ _ _ rfl rfl,
    show ridx_main_v68 (ix2 r k) j = ix2 j k from idx_ext2 _ _ _ rfl rfl, v67_at, v1_at]

/-- Laplacian 2 times the imaginary part. -/
theorem v74_at (r : Fin 4096) (k : Fin 64) :
    val_main_v74 (F := Ideal) x0 L (ix2 r k) = lx x0 L (2 : Fin 3) (1 : Fin 2) r k := by
  rw [val_main_v74_apply, lx]
  refine Finset.sum_congr rfl fun j _ => ?_
  rw [show lidx_main_v74 (ix2 r k) j = ix2 r j from idx_ext2 _ _ _ rfl rfl,
    show ridx_main_v74 (ix2 r k) j = ix2 j k from idx_ext2 _ _ _ rfl rfl, v73_at, v3_at]

theorem v89_at (r : Fin 4096) (k : Fin 64) :
    val_main_v89 (F := Ideal) x0 L (ix2 r k) = lx x0 L (2 : Fin 3) (1 : Fin 2) r k := v74_at x0 L r k

/-- (Laplacian 2 · real part) · weight 2. -/
theorem v71_at (r : Fin 4096) (q : Fin 64) :
    val_main_v71 (F := Ideal) x0 L x3 (ix2 r q)
      = ∑ k : Fin 64, lx x0 L (2 : Fin 3) (0 : Fin 2) r k * x3 (ix3 (2 : Fin 3) k q) := by
  rw [val_main_v71_apply]
  refine Finset.sum_congr rfl fun k _ => ?_
  rw [show lidx_main_v71 (ix2 r q) k = ix2 r k from idx_ext2 _ _ _ rfl rfl,
    show ridx_main_v71 (ix2 r q) k = ix2 k q from idx_ext2 _ _ _ rfl rfl, v68_at, v70_at]

theorem v86_at (r : Fin 4096) (q : Fin 64) :
    val_main_v86 (F := Ideal) x0 L x3 (ix2 r q)
      = ∑ k : Fin 64, lx x0 L (2 : Fin 3) (0 : Fin 2) r k * x3 (ix3 (2 : Fin 3) k q) := v71_at x0 L x3 r q

/-- (Laplacian 2 · imaginary part) · weight 2. -/
theorem v92_at (r : Fin 4096) (q : Fin 64) :
    val_main_v92 (F := Ideal) x0 L x3 (ix2 r q)
      = ∑ k : Fin 64, lx x0 L (2 : Fin 3) (1 : Fin 2) r k * x3 (ix3 (2 : Fin 3) k q) := by
  rw [val_main_v92_apply]
  refine Finset.sum_congr rfl fun k _ => ?_
  rw [show lidx_main_v92 (ix2 r q) k = ix2 r k from idx_ext2 _ _ _ rfl rfl,
    show ridx_main_v92 (ix2 r q) k = ix2 k q from idx_ext2 _ _ _ rfl rfl, v89_at, v91_at]

/-- (−1 · (Laplacian 2 · imaginary part)) · weight 2: the broadcast literal is the real −1. -/
theorem v79_at (r : Fin 4096) (q : Fin 64) :
    val_main_v79 (F := Ideal) x0 L x3 (ix2 r q)
      = ∑ k : Fin 64, (((-1 : ℝ) : EReal) * lx x0 L (2 : Fin 3) (1 : Fin 2) r k) * x3 (ix3 (2 : Fin 3) k q) := by
  rw [val_main_v79_apply]
  refine Finset.sum_congr rfl fun k _ => ?_
  rw [show lidx_main_v79 (ix2 r q) k = ix2 r k from idx_ext2 _ _ _ rfl rfl,
    show ridx_main_v79 (ix2 r q) k = ix2 k q from idx_ext2 _ _ _ rfl rfl, val_main_v76_apply, val_main_v75_apply,
    val_main_cst_1_apply, Ideal.mulf_def, Ideal.ofBits_def, ofBits_neg_one, v74_at, v78_at]

/-- The real term 2. -/
theorem v80_at (r : Fin 4096) (q : Fin 64) :
    val_main_v80 (F := Ideal) x0 Lr Li x3 (ix2 r q) = lfRe x0 Lr Li x3 (2 : Fin 3) r q := by
  rw [val_main_v80_apply, Ideal.addf_def, v71_at, v79_at, lfRe]

/-- The imaginary term 2. -/
theorem v93_at (r : Fin 4096) (q : Fin 64) :
    val_main_v93 (F := Ideal) x0 Lr Li x3 (ix2 r q) = lfIm x0 Lr Li x3 (2 : Fin 3) r q := by
  rw [val_main_v93_apply, Ideal.addf_def, v86_at, v92_at, lfIm]

/-- The stacked pair of term 2: part 0 is the real term, part 1 the imaginary one. -/
theorem v96_at0 (r : Fin 4096) (q : Fin 64) :
    val_main_v96 (F := Ideal) x0 Lr Li x3 (ix3 (0 : Fin 2) r q) = lfRe x0 Lr Li x3 (2 : Fin 3) r q := by
  unfold val_main_v96
  rw [cat2_left, val_main_v94_apply, show idx_main_v94 (ix3 (0 : Fin 1) r q) = ix2 r q from idx_ext2 _ _ _ rfl rfl,
    v80_at]

theorem v96_at1 (r : Fin 4096) (q : Fin 64) :
    val_main_v96 (F := Ideal) x0 Lr Li x3 (ix3 (1 : Fin 2) r q) = lfIm x0 Lr Li x3 (2 : Fin 3) r q := by
  unfold val_main_v96
  rw [cat2_right, val_main_v95_apply, show idx_main_v95 (ix3 (0 : Fin 1) r q) = ix2 r q from idx_ext2 _ _ _ rfl rfl,
    v93_at]

/-! ## The stack of the three pairs, summed over its leading axis

Each pair gets a unit leading axis and the three are joined along it; the sum over that axis, started from the literal
zero, adds slab 0, 1 and 2. -/

theorem v101_at (s : Fin 2) (r : Fin 4096) (q : Fin 64) :
    val_main_v101 (F := Ideal) x0 Lr Li x3 (ix3 s r q)
      = 0 + ((val_main_v34 (F := Ideal) x0 Lr Li x3 (ix3 s r q) + val_main_v65 (F := Ideal) x0 Lr Li x3 (ix3 s r q))
          + val_main_v96 (F := Ideal) x0 Lr Li x3 (ix3 s r q)) := by
  rw [val_main_v101_apply, val_main_cst_2_apply, Ideal.ofBits_def, Ideal.ofBits_zero_f32, Fin.sum_univ_three,
    show idx_main_v101 (ix3 s r q) 0 = ix4 (0 : Fin 3) s r q from idx_ext4 _ _ _ _ _ rfl rfl rfl rfl,
    show idx_main_v101 (ix3 s r q) 1 = ix4 (1 : Fin 3) s r q from idx_ext4 _ _ _ _ _ rfl rfl rfl rfl,
    show idx_main_v101 (ix3 s r q) 2 = ix4 (2 : Fin 3) s r q from idx_ext4 _ _ _ _ _ rfl rfl rfl rfl]
  unfold val_main_v100
  rw [cat3_0, cat3_1, cat3_2, val_main_v97_apply, val_main_v98_apply, val_main_v99_apply,
    show idx_main_v97 (ix4 (0 : Fin 1) s r q) = ix3 s r q from idx_ext3 _ _ _ _ rfl rfl rfl,
    show idx_main_v98 (ix4 (0 : Fin 1) s r q) = ix3 s r q from idx_ext3 _ _ _ _ rfl rfl rfl,
    show idx_main_v99 (ix4 (0 : Fin 1) s r q) = ix3 s r q from idx_ext3 _ _ _ _ rfl rfl rfl]

/-! ## The two results: a part of the sum plus the bias row -/

theorem v105_at (r : Fin 4096) (q : Fin 64) :
    val_main_v105 (F := Ideal) x0 Lr Li x3 x4 (ix2 r q) = laplacianFirstRe x0 Lr Li x3 x4 r q := by
  rw [val_main_v105_apply, Ideal.addf_def, val_main_v103_apply, val_main_v102_apply, val_main_v104_apply,
    show idx_main_v102 (idx_main_v103 (ix2 r q)) = ix3 (0 : Fin 2) r q from idx_ext3 _ _ _ _ rfl
      (by have := r.isLt; have := q.isLt; show (r.val * 64 + q.val) / 64 % 4096 = r.val; omega)
      (by have := r.isLt; have := q.isLt; show (r.val * 64 + q.val) % 64 = q.val; omega),
    show idx_main_v104 (ix2 r q) = ix2 (0 : Fin 1) q from idx_ext2 _ _ _ rfl rfl,
    v101_at, v34_at0, v65_at0, v96_at0, laplacianFirstRe, Fin.sum_univ_three]

theorem v109_at (r : Fin 4096) (q : Fin 64) :
    val_main_v109 (F := Ideal) x0 Lr Li x3 x4 (ix2 r q) = laplacianFirstIm x0 Lr Li x3 x4 r q := by
  rw [val_main_v109_apply, Ideal.addf_def, val_main_v107_apply, val_main_v106_apply, val_main_v108_apply,
    show idx_main_v106 (idx_main_v107 (ix2 r q)) = ix3 (1 : Fin 2) r q from idx_ext3 _ _ _ _ rfl
      (by have := r.isLt; have := q.isLt; show (r.val * 64 + q.val) / 64 % 4096 = r.val; omega)
      (by have := r.isLt; have := q.isLt; show (r.val * 64 + q.val) % 64 = q.val; omega),
    show idx_main_v108 (ix2 r q) = ix2 (0 : Fin 1) q from idx_ext2 _ _ _ rfl rfl,
    v101_at, v34_at1, v65_at1, v96_at1, laplacianFirstIm, Fin.sum_univ_three]

end Stages

/-- The first result (the real part) at row `r`, channel `q`. -/
theorem res_out0_apply (c : Dev nD) (r : Fin 4096) (q : Fin 64) :
    Cert.ReferenceIdeal.Value.res_out0 (F := Ideal) m c (ix2 r q)
      = laplacianFirstRe (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) r q :=
  (congrFun (val_main_v105_eq (F := Ideal) m c) (ix2 r q)).trans (v105_at _ _ _ _ _ r q)

/-- The second result (the imaginary part) at row `r`, channel `q`. -/
theorem res_out1_apply (c : Dev nD) (r : Fin 4096) (q : Fin 64) :
    Cert.ReferenceIdeal.Value.res_out1 (F := Ideal) m c (ix2 r q)
      = laplacianFirstIm (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) r q :=
  (congrFun (val_main_v109_eq (F := Ideal) m c) (ix2 r q)).trans (v109_at _ _ _ _ _ r q)

end Cert.RefValue

end
-- ==== Proof.Finite.lean ====
/-
  From the printed precondition to real entries. The precondition says, array by array, that every entry's absolute
  value is below +infinity; an extended real whose absolute value is below +infinity is a real number.
-/
import proofs.«128162_g38809324486706_cont_8to1_b_1300_7_alg».proof.Pre_finite_inputs
import proofs.«128162_g38809324486706_cont_8to1_b_1300_7_alg».proof.Proof.Spec
import Idealize.ShloMosaic.Lib.ReduceAll
import Idealize.ShloMosaic.PureOps.Ideal

noncomputable section

namespace Cert.Finite

open Idealize.ShloMosaic ChebSpec

/-- An extended real whose absolute value, the larger of it and its negation, is below +infinity is a real number:
    at -infinity the negation is +infinity, at +infinity the value itself is, and neither is below +infinity. -/
theorem real_of_abs_lt_top (x : EReal) (h : max x (-x) < ⊤) : ∃ r : ℝ, x = (r : EReal) := by
  induction x using EReal.rec with
  | bot => simp at h
  | coe r => exact ⟨r, rfl⟩
  | top => simp at h

/-- The one-bit word of a Boolean is 1 exactly when the Boolean is true. -/
theorem ofBool_eq_one_iff (b : Bool) : BitVec.ofBool b = 1#1 ↔ b = true := by cases b <;> decide

/-- One array of any shape: if the conjunction, over all its entries, of "the absolute value is below +infinity"
    is 1, then every entry is a real number. The conjunction being 1 gives the comparison 1 at every index; the
    comparison is the order of the extended reals, the broadcast word 0x7F800000 is +infinity, and the absolute value
    is the larger of the entry and its negation. -/
theorem allReal_of_all {S : Shape} {axes : List (Fin S.rank)}
    (hb : Cert.Pre_finite_inputs.S_.BroadcastsInDim S (![] : Fin 0 → Fin S.rank))
    (hr : S.ReducesTo axes Cert.Pre_finite_inputs.S_) (hu : 0 < Cert.Pre_finite_inputs.S_.numel)
    (a : FVec Ideal S .f32) (init : IVec Cert.Pre_finite_inputs.S_ 1) (j : Cert.Pre_finite_inputs.S_.Idx)
    (e : Host.reduce IntOp.andi
          (cmpf .olt (Host.absf a)
            (broadcastInDim S ![] hb (constant (F := Ideal) Cert.Pre_finite_inputs.S_ .f32 0x7F800000#32)))
          init hr hu j = 1#1) :
    AllReal a := by
  intro i
  haveI : Subsingleton Cert.Pre_finite_inputs.S_.Idx := ⟨fun p q => funext fun d => d.elim0⟩
  have h1 := Host.reduce_andi_all _ init hr hu j e i
  have htop : Ideal.ofBits .f32 0x7F800000#32 = ⊤ := by simp [Ideal.ofBits, Ideal.ieee]
  apply real_of_abs_lt_top
  have h2 : Ideal.cmp .olt (max (a i) (-(a i))) (Ideal.ofBits .f32 0x7F800000#32) = 1#1 := h1
  rw [htop] at h2
  have h3 : decide (max (a i) (-(a i)) < ⊤) = true := (ofBool_eq_one_iff _).1 h2
  exact of_decide_eq_true h3

/-- The precondition all ones gives every entry of the five arrays as a real number. -/
theorem allReal_of_finite [Cert.Pre_finite_inputs.Facts]
    (a0 : FVec Ideal Cert.Pre_finite_inputs.S2x4096x64 .f32) (a1 a2 : FVec Ideal Cert.Pre_finite_inputs.S3x4096x4096 .f32)
    (a3 : FVec Ideal Cert.Pre_finite_inputs.S3x64x64 .f32) (a4 : FVec Ideal Cert.Pre_finite_inputs.S1x64 .f32)
    (h : Cert.Pre_finite_inputs.fn (F := Ideal) a0 a1 a2 a3 a4 = fun _ => 1#1) :
    AllReal a0 ∧ AllReal a1 ∧ AllReal a2 ∧ AllReal a3 ∧ AllReal a4 := by
  -- the rank-0 result at its one index: a conjunction of the five per-array conjunctions
  have h0 := congrFun h (fun d => d.elim0)
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨allReal_of_all _ _ _ a0 _ _ e0, allReal_of_all _ _ _ a1 _ _ e1, allReal_of_all _ _ _ a2 _ _ e2,
    allReal_of_all _ _ _ a3 _ _ e3, allReal_of_all _ _ _ a4 _ _ e4⟩

end Cert.Finite

end
-- ==== Proof.SpecLaw.lean ====
/-
  The two orders of the convolution agree when every entry is a real number: with real entries every sum and
  product below is a real number, a triple product Σ_j Σ_k a_j x_jk w_k may be summed in either order, a factor
  moves across a finite sum, and 0 − y = (−1) · y.
-/
import proofs.«128162_g38809324486706_cont_8to1_b_1300_7_alg».proof.Proof.Spec

noncomputable section

open scoped BigOperators

namespace ChebSpec

open Idealize.ShloMosaic Idealize.ShloMosaic.ValueIdx

variable {R : Nat}
variable (X : XIdx → EReal) (Lr Li : LIdx R → EReal) (W : WIdx → EReal) (b : BIdx → EReal)

/-- A real finite sum, read in the extended reals, is the sum of the terms read there. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A triple product may be summed in either order. -/
theorem real_exchange {J K : Type} [Fintype J] [Fintype K] (a : J → ℝ) (x : J → K → ℝ) (w : K → ℝ) :
    ∑ j, a j * (∑ k, x j k * w k) = ∑ k, (∑ j, a j * x j k) * w k := by
  simp only [Finset.mul_sum, Finset.sum_mul]
  rw [Finset.sum_comm]
  refine Finset.sum_congr rfl fun k _ => Finset.sum_congr rfl fun j _ => ?_
  rw [mul_assoc]

/-- The same with the inner product negated: 0 − y on one side, (−1) · y on the other. -/
theorem real_exchange_neg {J K : Type} [Fintype J] [Fintype K] (a : J → ℝ) (x : J → K → ℝ) (w : K → ℝ) :
    ∑ j, a j * (0 - ∑ k, x j k * w k) = ∑ k, ((-1 : ℝ) * ∑ j, a j * x j k) * w k := by
  have h := real_exchange a x w
  simp only [zero_sub, mul_neg, Finset.sum_neg_distrib, neg_mul, one_mul]
  rw [h]

/-- With real entries, one Laplacian-times-(features-times-weight) sum equals the (Laplacian-times-features)-times-weight sum. -/
theorem lxw_eq (hX : AllReal X) (L : LIdx R → EReal) (hL : AllReal L) (hW : AllReal W)
    (s : Fin 2) (i : Fin 3) (r : Fin R) (q : Fin 64) :
    (∑ j : Fin 4096, L (ix3 i r j) * xw X W s i j q) = ∑ k : Fin 64, lx X L i s r k * W (ix3 i k q) := by
  choose xr hxr using hX
  choose lr hlr using hL
  choose wr hwr using hW
  simp only [xw, lx, hxr, hlr, hwr, ← EReal.coe_mul, ← coe_sum]
  exact congrArg _ (real_exchange (fun j => lr (ix3 i r j)) (fun j k => xr (ix3 s j k)) (fun k => wr (ix3 i k q)))

/-- The negated form: 0 − y inside on one side, (−1) · y outside on the other. -/
theorem lxw_neg_eq (hX : AllReal X) (L : LIdx R → EReal) (hL : AllReal L) (hW : AllReal W)
    (s : Fin 2) (i : Fin 3) (r : Fin R) (q : Fin 64) :
    (∑ j : Fin 4096, L (ix3 i r j) * (0 - xw X W s i j q))
      = ∑ k : Fin 64, (((-1 : ℝ) : EReal) * lx X L i s r k) * W (ix3 i k q) := by
  choose xr hxr using hX
  choose lr hlr using hL
  choose wr hwr using hW
  simp only [xw, lx, hxr, hlr, hwr, ← EReal.coe_zero, ← EReal.coe_mul, ← coe_sum, ← EReal.coe_sub]
  exact congrArg _ (real_exchange_neg (fun j => lr (ix3 i r j)) (fun j k => xr (ix3 s j k)) (fun k => wr (ix3 i k q)))

/-- Term `i` of the real part is the same in both orders. -/
theorem wfRe_eq (hX : AllReal X) (hLr : AllReal Lr) (hLi : AllReal Li) (hW : AllReal W)
    (i : Fin 3) (r : Fin R) (q : Fin 64) : wfRe X Lr Li W i r q = lfRe X Lr Li W i r q := by
  rw [wfRe, lfRe, lxw_eq X W hX Lr hLr hW, lxw_neg_eq X W hX Li hLi hW]

/-- Term `i` of the imaginary part is the same in both orders; the two summands appear in the opposite order. -/
theorem wfIm_eq (hX : AllReal X) (hLr : AllReal Lr) (hLi : AllReal Li) (hW : AllReal W)
    (i : Fin 3) (r : Fin R) (q : Fin 64) : wfIm X Lr Li W i r q = lfIm X Lr Li W i r q := by
  rw [wfIm, lfIm, lxw_eq X W hX Lr hLr hW, lxw_eq X W hX Li hLi hW]
  exact add_comm _ _

/-- The real parts agree: the three terms agree one by one, and 0 + s = s. The bias is added last on both sides. -/
theorem weightFirstRe_eq (hX : AllReal X) (hLr : AllReal Lr) (hLi : AllReal Li) (hW : AllReal W) (hb : AllReal b)
    (r : Fin R) (q : Fin 64) : weightFirstRe X Lr Li W b r q = laplacianFirstRe X Lr Li W b r q := by
  rw [weightFirstRe, laplacianFirstRe, Fin.sum_univ_three, zero_add]
  simp only [wfRe_eq X Lr Li W hX hLr hLi hW]

/-- The imaginary parts agree, in the same way. -/
theorem weightFirstIm_eq (hX : AllReal X) (hLr : AllReal Lr) (hLi : AllReal Li) (hW : AllReal W) (hb : AllReal b)
    (r : Fin R) (q : Fin 64) : weightFirstIm X Lr Li W b r q = laplacianFirstIm X Lr Li W b r q := by
  rw [weightFirstIm, laplacianFirstIm, Fin.sum_univ_three, zero_add]
  simp only [wfIm_eq X Lr Li W hX hLr hLi hW]

end ChebSpec

end
-- ==== Proof.lean ====
/-
  The certificate's five claims for the Chebyshev spectral graph convolution.

  Both programs compute, for each of three Laplacian pairs (Lr[i], Li[i]) and weights W[i], the complex product
  (Lr[i] + i·Li[i]) (X_r + i·X_i) W[i], sum the three, and add a bias row to the real and to the imaginary part.
  The kernel multiplies the features by the weight first (P = X_r W, Q = X_i W), packs [P | Q] and [0 − Q | P]
  so that one row block of Lr and one of Li give both parts at once, and adds the three terms in order; the
  reference multiplies by the Laplacian first, negates with a product by −1, stacks the three terms and sums the
  stack from zero. Over the extended reals the two orders need not agree at infinities; the precondition makes
  every input entry a real number, and then they do: the triple sums may be taken in either order (SpecLaw).

  The kernel's side: what one grid point leaves in the 128 × 128 output block is a function of the point's input
  blocks (KernelPiece), read at an entry as the weight-first formula on those blocks (KernelBlockAt); block t covers
  rows 128 t … 128 t + 127 of the packed [4096, 128] array, the 32 blocks cover it, and the two slices after the
  region split it into the real and the imaginary part (KernelArray). The reference's side: its run's two result terms
  read at an entry are the Laplacian-first formula (RefValue). The frames of the two kernel programs are the generated
  frame certificates; the reference's frame is its run with the results dropped; the idealization rewrote nothing.
-/
import proofs.«128162_g38809324486706_cont_8to1_b_1300_7_alg».proof.Defs
import proofs.«128162_g38809324486706_cont_8to1_b_1300_7_alg».proof.Proof.Gen.Kernel
import proofs.«128162_g38809324486706_cont_8to1_b_1300_7_alg».proof.Proof.Gen.Kernel.Frame
import proofs.«128162_g38809324486706_cont_8to1_b_1300_7_alg».proof.Proof.Gen.KernelIdeal
import proofs.«128162_g38809324486706_cont_8to1_b_1300_7_alg».proof.Proof.Gen.KernelIdeal.Frame
import proofs.«128162_g38809324486706_cont_8to1_b_1300_7_alg».proof.Proof.Gen.ReferenceIdeal
import proofs.«128162_g38809324486706_cont_8to1_b_1300_7_alg».proof.Proof.Gen.ReferenceIdeal.Run
import proofs.«128162_g38809324486706_cont_8to1_b_1300_7_alg».proof.Proof.Gen.Pre_finite_inputs
import proofs.«128162_g38809324486706_cont_8to1_b_1300_7_alg».proof.Proof.KernelArray
import proofs.«128162_g38809324486706_cont_8to1_b_1300_7_alg».proof.Proof.RefValue
import proofs.«128162_g38809324486706_cont_8to1_b_1300_7_alg».proof.Proof.Finite
import proofs.«128162_g38809324486706_cont_8to1_b_1300_7_alg».proof.Proof.SpecLaw
import Idealize.ShloMosaic.Adequacy
import Idealize.ShloMosaic.Init

noncomputable section

namespace Cert.Proof

open Idealize.ShloMosaic Idealize.ShloMosaic.ValueIdx Idealize.SL.Sem ChebSpec

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- The kernel's two results are the weight-first real and imaginary parts of its arguments, the reference's the
    Laplacian-first parts of arguments that agree; the precondition makes every entry real, where the two orders
    give the same number. -/
theorem algebraic : Cert.algebraic_KernelIdeal_ReferenceIdeal := by
  intro m ρ m' ρ' hpre hagree
  refine ⟨fun c => Cert.KernelIdeal.Hand.outRe m c, fun c => Cert.KernelIdeal.Hand.outIm m c,
    Cert.KernelIdeal.Hand.run m ρ, ?_⟩
  refine (θ_run Cert.ReferenceIdeal.defs _ _).mono (fun _ h c => ?_) (Cert.ReferenceIdeal.Value.run (F := Ideal) m' ρ')
  obtain ⟨h0, h1, h2⟩ := h c
  obtain ⟨hX, hLr, hLi, hW, hb⟩ := Cert.Finite.allReal_of_finite _ _ _ _ _ (hpre c)
  obtain ⟨a0, a1, a2, a3, a4⟩ := hagree c
  refine ⟨h0.trans ?_, h1.trans ?_, h2⟩
  · funext j
    obtain ⟨r, q, rfl⟩ : ∃ (r : Fin 4096) (q : Fin 64), j = ix2 r q := ⟨j 0, j 1, eq_ix2 j⟩
    refine (Cert.RefValue.res_out0_apply m' c r q).trans ?_
    rw [a0, a1, a2, a3, a4]
    exact ((Cert.KernelIdeal.Hand.outRe_apply m c r q).trans (weightFirstRe_eq _ _ _ _ _ hX hLr hLi hW hb r q)).symm
  · funext j
    obtain ⟨r, q, rfl⟩ : ∃ (r : Fin 4096) (q : Fin 64), j = ix2 r q := ⟨j 0, j 1, eq_ix2 j⟩
    refine (Cert.RefValue.res_out1_apply m' c r q).trans ?_
    rw [a0, a1, a2, a3, a4]
    exact ((Cert.KernelIdeal.Hand.outIm_apply m c r q).trans (weightFirstIm_eq _ _ _ _ _ hX hLr hLi hW hb r q)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
